-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x256x256 : Shape := ⟨4, ![64, 4, 256, 256]⟩
abbrev S_ : Shape := ⟨0, ![]⟩

class Facts : Prop where
  bcast_S_S64x4x256x256 : S_.BroadcastsInDim S64x4x256x256 (![] : Fin 0 → Fin S64x4x256x256.rank)
  reducesTo_S64x4x256x256_S_d0_1_2_3 : S64x4x256x256.ReducesTo [0, 1, 2, 3] S_
  h_S_ : 0 < S_.numel

variable [Facts]

def fn {F : FTy → Type} [FloatOps F] (main_arg0 : FVec F S64x4x256x256 .f32) (main_arg1 : FVec F S64x4x256x256 .f32) (main_arg2 : IVec S64x4x256x256 32) : IVec S_ 1 :=
  let main_v0 : FVec F S64x4x256x256 .f32 := Host.absf main_arg0
  let main_cst : FVec F S_ .f32 := constant S_ .f32 0x7F800000#32
  let main_v1 : FVec F S64x4x256x256 .f32 := broadcastInDim S64x4x256x256 ![] bcast_S_S64x4x256x256 main_cst
  let main_v2 : IVec S64x4x256x256 1 := cmpf .olt main_v0 main_v1
  let main_c : IVec S_ 1 := constantI S_ 1 1#1
  let main_v3 : IVec S_ 1 := (fun x v => Host.reduce IntOp.andi x v reducesTo_S64x4x256x256_S_d0_1_2_3 h_S_) main_v2 main_c
  let main_v4 : FVec F S64x4x256x256 .f32 := Host.absf main_arg1
  let main_cst_0 : FVec F S_ .f32 := constant S_ .f32 0x7F800000#32
  let main_v5 : FVec F S64x4x256x256 .f32 := broadcastInDim S64x4x256x256 ![] bcast_S_S64x4x256x256 main_cst_0
  let main_v6 : IVec S64x4x256x256 1 := cmpf .olt main_v4 main_v5
  let main_c_1 : IVec S_ 1 := constantI S_ 1 1#1
  let main_v7 : IVec S_ 1 := (fun x v => Host.reduce IntOp.andi x v reducesTo_S64x4x256x256_S_d0_1_2_3 h_S_) main_v6 main_c_1
  let main_v8 : IVec S_ 1 := andi main_v3 main_v7
  main_v8
-- ==== Kernel.lean ====
abbrev S64x4x256x256 : Shape := ⟨4, ![64, 4, 256, 256]⟩
abbrev S16384x1024 : Shape := ⟨2, ![16384, 1024]⟩
abbrev S2x10x1024 : Shape := ⟨3, ![2, 10, 1024]⟩
abbrev S1024x1024 : Shape := ⟨2, ![1024, 1024]⟩
abbrev S1x10x1024 : Shape := ⟨3, ![1, 10, 1024]⟩
abbrev S10x1024 : Shape := ⟨2, ![10, 1024]⟩
abbrev S1024 : Shape := ⟨1, ![1024]⟩
abbrev S1x1024 : Shape := ⟨2, ![1, 1024]⟩
abbrev S_ : Shape := ⟨0, ![]⟩
abbrev S10 : Shape := ⟨1, ![10]⟩

abbrev nBuf : Space → Nat
  | .hbm => 45
  | .vmem => 12
  | .smem => 0
  | _ => 0

abbrev bufTy : (tb : Table) → Fin (tcTables nBuf tb) → BufTy
  | .hbm, ⟨0, _⟩ => ⟨S64x4x256x256, .f32⟩
  | .hbm, ⟨1, _⟩ => ⟨S64x4x256x256, .f32⟩
  | .hbm, ⟨2, _⟩ => ⟨S64x4x256x256, .i32⟩
  | .hbm, ⟨3, _⟩ => ⟨S16384x1024, .f32⟩
  | .hbm, ⟨4, _⟩ => ⟨S16384x1024, .f32⟩
  | .hbm, ⟨5, _⟩ => ⟨S16384x1024, .i32⟩
  | .hbm, ⟨6, _⟩ => ⟨S2x10x1024, .f32⟩
  | .hbm, ⟨7, _⟩ => ⟨S2x10x1024, .f32⟩
  | .hbm, ⟨8, _⟩ => ⟨S_, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S10, .i1⟩
  | .hbm, ⟨19, _⟩ => ⟨S10, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S10, .f32⟩
  | .hbm, ⟨25, _⟩ => ⟨S10, .i1⟩
  | .hbm, ⟨26, _⟩ => ⟨S_, .f32⟩
  | .hbm, ⟨27, _⟩ => ⟨S10, .f32⟩
  | .hbm, ⟨28, _⟩ => ⟨S10, .f32⟩
  | .hbm, ⟨29, _⟩ => ⟨S10, .f32⟩
  | .hbm, ⟨30, _⟩ => ⟨S10, .f32⟩
  | .hbm, ⟨31, _⟩ => ⟨S_, .f32⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .i32⟩
  | .local _ .vmem, ⟨5, _⟩ => ⟨S1024x1024, .i32⟩
  | .local _ .vmem, ⟨6, _⟩ => ⟨S1x10x1024, .f32⟩
  | .local _ .vmem, ⟨7, _⟩ => ⟨S1x10x1024, .f32⟩
  | .local _ .vmem, ⟨8, _⟩ => ⟨S1x10x1024, .f32⟩
  | .local _ .vmem, ⟨9, _⟩ => ⟨S1x10x1024, .f32⟩
  | .local _ .vmem, ⟨10, _⟩ => ⟨S10x1024, .f32⟩
  | .local _ .vmem, ⟨11, _⟩ => ⟨S10x1024, .f32⟩
  | _, _ => ⟨S64x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32_103 : BitVec 32 := 7#32
  let v219 : BitVec 1 := Scalar.cmpi .eq arg1 c7_i32_103
  let v220 : BitVec 32 := Scalar.extui v219
  let c0_i32_104 : BitVec 32 := 0#32
  let v221 : BitVec 1 := Scalar.cmpi .ne v220 c0_i32_104
  v221

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x10x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x4x256x256_S16384x1024 : S64x4x256x256.ShapeCasts S16384x1024
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  reduces_S1024x1024_S1024 : S1024x1024.Reduces [0] S1024
  shapeCasts_S1024_S1x1024 : S1024.ShapeCasts S1x1024
  inb_S10x1024_S1x1024_0_0 : ∀ a, (![0, 0] : Fin 2 → Nat) a + S1x1024.size a ≤ S10x1024.size a
  h_S1x1024 : 0 < S1x1024.numel
  shapeCasts_S1x1024_S1x1024 : S1x1024.ShapeCasts S1x1024
  inb_S10x1024_S1x1024_1_0 : ∀ a, (![1, 0] : Fin 2 → Nat) a + S1x1024.size a ≤ S10x1024.size a
  inb_S10x1024_S1x1024_2_0 : ∀ a, (![2, 0] : Fin 2 → Nat) a + S1x1024.size a ≤ S10x1024.size a
  inb_S10x1024_S1x1024_3_0 : ∀ a, (![3, 0] : Fin 2 → Nat) a + S1x1024.size a ≤ S10x1024.size a
  inb_S10x1024_S1x1024_4_0 : ∀ a, (![4, 0] : Fin 2 → Nat) a + S1x1024.size a ≤ S10x1024.size a
  inb_S10x1024_S1x1024_5_0 : ∀ a, (![5, 0] : Fin 2 → Nat) a + S1x1024.size a ≤ S10x1024.size a
  inb_S10x1024_S1x1024_6_0 : ∀ a, (![6, 0] : Fin 2 → Nat) a + S1x1024.size a ≤ S10x1024.size a
  inb_S10x1024_S1x1024_7_0 : ∀ a, (![7, 0] : Fin 2 → Nat) a + S1x1024.size a ≤ S10x1024.size a
  inb_S10x1024_S1x1024_8_0 : ∀ a, (![8, 0] : Fin 2 → Nat) a + S1x1024.size a ≤ S10x1024.size a
  inb_S10x1024_S1x1024_9_0 : ∀ a, (![9, 0] : Fin 2 → Nat) a + S1x1024.size a ≤ S10x1024.size a
  inb_S1x10x1024_S1x10x1024_0_0_0 : ∀ a, (![0, 0, 0] : Fin 3 → Nat) a + S1x10x1024.size a ≤ S1x10x1024.size a
  h_S1x10x1024 : 0 < S1x10x1024.numel
  shapeCasts_S1x10x1024_S10x1024 : S1x10x1024.ShapeCasts S10x1024
  shapeCasts_S10x1024_S1x10x1024 : S10x1024.ShapeCasts S1x10x1024
  reducesTo_S2x10x1024_S10_d0_2 : S2x10x1024.ReducesTo [0, 2] S10
  h_S_ : 0 < S_.numel
  reducesTo_S10_S_d0 : S10.ReducesTo [0] S_
  bcast_S_S10 : S_.BroadcastsInDim S10 (![] : Fin 0 → Fin S10.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .i32 = 32 ∨ (Rect.block (s := S16384x1024) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x1024.size a ≤ S2x10x1024.size a
  hwx0_3 : ∀ i : grid0.Coords, EltTy.bits .f32 = 32 ∨ (Rect.block (s := S2x10x1024) S1x10x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x10x1024.size a ≤ S2x10x1024.size a
  hwx0_4 : ∀ i : grid0.Coords, EltTy.bits .f32 = 32 ∨ (Rect.block (s := S2x10x1024) S1x10x1024.size (cc0_transform_4 i) (hinb0_4 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x10x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x10x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x4x256x256 : Shape := ⟨4, ![64, 4, 256, 256]⟩
abbrev S_ : Shape := ⟨0, ![]⟩
abbrev S10 : Shape := ⟨1, ![10]⟩
abbrev S16777216 : Shape := ⟨1, ![16777216]⟩
abbrev S16777216x1 : Shape := ⟨2, ![16777216, 1]⟩
abbrev S64x4x256x256x1 : Shape := ⟨5, ![64, 4, 256, 256, 1]⟩

abbrev nBuf : Space → Nat
  | .hbm => 95
  | .vmem => 0
  | .smem => 0
  | _ => 0

abbrev bufTy : (tb : Table) → Fin (tcTables nBuf tb) → BufTy
  | .hbm, ⟨0, _⟩ => ⟨S64x4x256x256, .f32⟩
  | .hbm, ⟨1, _⟩ => ⟨S64x4x256x256, .f32⟩
  | .hbm, ⟨2, _⟩ => ⟨S64x4x256x256, .i32⟩
  | .hbm, ⟨3, _⟩ => ⟨S64x4x256x256, .f32⟩
  | .hbm, ⟨4, _⟩ => ⟨S64x4x256x256, .f32⟩
  | .hbm, ⟨5, _⟩ => ⟨S_, .f32⟩
  | .hbm, ⟨6, _⟩ => ⟨S64x4x256x256, .f32⟩
  | .hbm, ⟨7, _⟩ => ⟨S64x4x256x256, .f32⟩
  | .hbm, ⟨8, _⟩ => ⟨S64x4x256x256, .f32⟩
  | .hbm, ⟨9, _⟩ => ⟨S_, .f32⟩
  | .hbm, ⟨10, _⟩ => ⟨S64x4x256x256, .f32⟩
  | .hbm, ⟨11, _⟩ => ⟨S64x4x256x256, .f32⟩
  | .hbm, ⟨12, _⟩ => ⟨S64x4x256x256, .f32⟩
  | .hbm, ⟨13, _⟩ => ⟨S64x4x256x256, .f32⟩
  | .hbm, ⟨14, _⟩ => ⟨S_, .f32⟩
  | .hbm, ⟨15, _⟩ => ⟨S64x4x256x256, .f32⟩
  | .hbm, ⟨16, _⟩ => ⟨S64x4x256x256, .f32⟩
  | .hbm, ⟨17, _⟩ => ⟨S64x4x256x256, .f32⟩
  | .hbm, ⟨18, _⟩ => ⟨S64x4x256x256, .f32⟩
  | .hbm, ⟨19, _⟩ => ⟨S_, .i32⟩
  | .hbm, ⟨20, _⟩ => ⟨S64x4x256x256, .i32⟩
  | .hbm, ⟨21, _⟩ => ⟨S64x4x256x256, .i1⟩
  | .hbm, ⟨22, _⟩ => ⟨S64x4x256x256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64x4x256x256, .f32⟩
  | .hbm, ⟨29, _⟩ => ⟨S64x4x256x256, .f32⟩
  | .hbm, ⟨30, _⟩ => ⟨S64x4x256x256, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S64x4x256x256, .i32⟩
  | .hbm, ⟨35, _⟩ => ⟨S64x4x256x256, .i32⟩
  | .hbm, ⟨36, _⟩ => ⟨S_, .i32⟩
  | .hbm, ⟨37, _⟩ => ⟨S64x4x256x256, .i32⟩
  | .hbm, ⟨38, _⟩ => ⟨S64x4x256x256, .i32⟩
  | .hbm, ⟨39, _⟩ => ⟨S_, .f32⟩
  | .hbm, ⟨40, _⟩ => ⟨S10, .f32⟩
  | .hbm, ⟨41, _⟩ => ⟨S16777216, .i32⟩
  | .hbm, ⟨42, _⟩ => ⟨S16777216, .i1⟩
  | .hbm, ⟨43, _⟩ => ⟨S16777216, .f32⟩
  | .hbm, ⟨44, _⟩ => ⟨S_, .i32⟩
  | .hbm, ⟨45, _⟩ => ⟨S16777216, .i32⟩
  | .hbm, ⟨46, _⟩ => ⟨S16777216, .i1⟩
  | .hbm, ⟨47, _⟩ => ⟨S_, .i32⟩
  | .hbm, ⟨48, _⟩ => ⟨S16777216, .i32⟩
  | .hbm, ⟨49, _⟩ => ⟨S16777216, .i32⟩
  | .hbm, ⟨50, _⟩ => ⟨S16777216, .i32⟩
  | .hbm, ⟨51, _⟩ => ⟨S16777216x1, .i32⟩
  | .hbm, ⟨52, _⟩ => ⟨S10, .f32⟩
  | .hbm, ⟨53, _⟩ => ⟨S_, .f32⟩
  | .hbm, ⟨54, _⟩ => ⟨S10, .f32⟩
  | .hbm, ⟨55, _⟩ => ⟨S10, .i1⟩
  | .hbm, ⟨56, _⟩ => ⟨S10, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S10, .f32⟩
  | .hbm, ⟨62, _⟩ => ⟨S10, .i1⟩
  | .hbm, ⟨63, _⟩ => ⟨S_, .f32⟩
  | .hbm, ⟨64, _⟩ => ⟨S10, .f32⟩
  | .hbm, ⟨65, _⟩ => ⟨S10, .f32⟩
  | .hbm, ⟨66, _⟩ => ⟨S10, .f32⟩
  | .hbm, ⟨67, _⟩ => ⟨S10, .f32⟩
  | .hbm, ⟨68, _⟩ => ⟨S_, .f32⟩
  | .hbm, ⟨69, _⟩ => ⟨S_, .f32⟩
  | .hbm, ⟨70, _⟩ => ⟨S10, .f32⟩
  | .hbm, ⟨71, _⟩ => ⟨S10, .f32⟩
  | .hbm, ⟨72, _⟩ => ⟨S_, .f32⟩
  | .hbm, ⟨73, _⟩ => ⟨S_, .f32⟩
  | .hbm, ⟨74, _⟩ => ⟨S10, .f32⟩
  | .hbm, ⟨75, _⟩ => ⟨S10, .f32⟩
  | .hbm, ⟨76, _⟩ => ⟨S_, .i32⟩
  | .hbm, ⟨77, _⟩ => ⟨S64x4x256x256, .i32⟩
  | .hbm, ⟨78, _⟩ => ⟨S64x4x256x256, .i1⟩
  | .hbm, ⟨79, _⟩ => ⟨S_, .i32⟩
  | .hbm, ⟨80, _⟩ => ⟨S64x4x256x256, .i32⟩
  | .hbm, ⟨81, _⟩ => ⟨S64x4x256x256, .i32⟩
  | .hbm, ⟨82, _⟩ => ⟨S64x4x256x256, .i32⟩
  | .hbm, ⟨83, _⟩ => ⟨S64x4x256x256x1, .i32⟩
  | .hbm, ⟨84, _⟩ => ⟨S64x4x256x256, .f32⟩
  | .hbm, ⟨85, _⟩ => ⟨S_, .f32⟩
  | .hbm, ⟨86, _⟩ => ⟨S_, .f32⟩
  | .hbm, ⟨87, _⟩ => ⟨S64x4x256x256, .f32⟩
  | .hbm, ⟨88, _⟩ => ⟨S64x4x256x256, .f32⟩
  | .hbm, ⟨89, _⟩ => ⟨S64x4x256x256, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S64x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_11 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_call1_v0 : Ref sig .tc := ⟨.hbm, 69, rfl⟩
abbrev main_call1_v1 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_16 : Ref sig .tc := ⟨.hbm, 76, rfl⟩
abbrev main_v48 : Ref sig .tc := ⟨.hbm, 77, rfl⟩
abbrev main_v49 : Ref sig .tc := ⟨.hbm, 78, rfl⟩
abbrev main_c_17 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_18 : Ref sig .tc := ⟨.hbm, 85, rfl⟩
abbrev main_call2_v0 : Ref sig .tc := ⟨.hbm, 86, rfl⟩
abbrev main_call2_v1 : Ref sig .tc := ⟨.hbm, 87, rfl⟩
abbrev main_v55 : Ref sig .tc := ⟨.hbm, 88, rfl⟩
abbrev main_v56 : Ref sig .tc := ⟨.hbm, 89, rfl⟩
abbrev main_cst_19 : Ref sig .tc := ⟨.hbm, 90, rfl⟩
abbrev main_v57 : Ref sig .tc := ⟨.hbm, 91, rfl⟩
abbrev main_v58 : Ref sig .tc := ⟨.hbm, 92, rfl⟩
abbrev main_cst_20 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  bcast_S_S64x4x256x256 : S_.BroadcastsInDim S64x4x256x256 (![] : Fin 0 → Fin S64x4x256x256.rank)
  reducesTo_S64x4x256x256_S_d0_1_2_3 : S64x4x256x256.ReducesTo [0, 1, 2, 3] S_
  h_S_ : 0 < S_.numel
  bcast_S_S10 : S_.BroadcastsInDim S10 (![] : Fin 0 → Fin S10.rank)
  shapeCasts_S64x4x256x256_S16777216 : S64x4x256x256.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  natLt_1_32 : 1 < 32
  reducesTo_S10_S_d0 : S10.ReducesTo [0] S_
  bcast_S64x4x256x256_S64x4x256x256x1_0_1_2_3 : S64x4x256x256.BroadcastsInDim S64x4x256x256x1 (![0, 1, 2, 3] : Fin 4 → Fin S64x4x256x256x1.rank)
  scatter_S10_S16777216x1_S16777216_n_0_0_1_wf : ScatterDims.WF S10 S16777216x1 S16777216 [] [0] [0] 1
  gather_S10_S64x4x256x256x1_S64x4x256x256_n_0_n_n_0_4_1_wf : GatherDims.WF S10 S64x4x256x256x1 S64x4x256x256 [] [0] [] [0] [] 4 ![1]

variable [Facts₀]

def scatter_S10_S16777216x1_S16777216_n_0_0_1 : ScatterDims S10 S16777216x1 S16777216 where
  updateWindowDims := []
  insertedWindowDims := [0]
  scatterDimsToOperandDims := [0]
  indexVectorDim := 1
  wf := scatter_S10_S16777216x1_S16777216_n_0_0_1_wf
def gather_S10_S64x4x256x256x1_S64x4x256x256_n_0_n_n_0_4_1 : GatherDims S10 S64x4x256x256x1 S64x4x256x256 where
  offsetDims := []
  collapsedSliceDims := [0]
  operandBatchingDims := []
  startIndicesBatchingDims := []
  startIndexMap := [0]
  indexVectorDim := 4
  sliceSizes := ![1]
  wf := gather_S10_S64x4x256x256x1_S64x4x256x256_n_0_n_n_0_4_1_wf

class Facts : Prop extends Facts₀ where

variable [Facts]
-- ==== Proof.Finite.lean ====
/- Under the precondition every entry of the two float inputs is a real number.

   The precondition says |x| < +∞ at every entry of both arrays (two conjunctions over all entries, joined); an
   extended real whose absolute value max x (−x) is below +∞ is neither +∞ nor −∞. -/
import proofs.«411748_j55654186222056_3_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- The f32 pattern of +∞ denotes ⊤. -/
theorem ofBits_inf : Ideal.ofBits .f32 0x7F800000#32 = ⊤ := by
  simp [Ideal.ofBits, Ideal.ieee]

/-- An extended real whose absolute value is below +∞ is a real. -/
theorem real_of_abs_lt (x : EReal)
    (h : FloatOps.cmpf (F := Ideal) .olt (FloatOps.hostAbsf x) (Ideal.ofBits .f32 0x7F800000#32) = 1#1) :
    ∃ r : ℝ, x = (r : EReal) := by
  rw [ofBits_inf] at h
  have h' : max x (-x) < ⊤ := by
    have : Ideal.cmp .olt (max x (-x)) ⊤ = 1#1 := h
    unfold Ideal.cmp at this
    by_contra hc
    simp [hc] at this
  induction x using EReal.rec with
  | bot => simp at h'
  | coe r => exact ⟨r, rfl⟩
  | top => simp at h'

variable [Cert.Pre_finite_inputs.Facts]

/-- The precondition, decoded: both float inputs hold reals everywhere. -/
theorem reals_of_pre (a0 a1 : FVec Ideal Cert.Pre_finite_inputs.S64x4x256x256 .f32) (a2 : IVec Cert.Pre_finite_inputs.S64x4x256x256 32)
    (h : Cert.Pre_finite_inputs.fn (F := Ideal) a0 a1 a2 = fun _ => 1#1) :
    (∀ e, ∃ r : ℝ, a0 e = (r : EReal)) ∧ (∀ e, ∃ r : ℝ, a1 e = (r : EReal)) := by
  have h0 := congrFun h ix0
  dsimp only [Cert.Pre_finite_inputs.fn] at h0
  obtain ⟨h1, h2⟩ := IntOp.andi_eq_one.mp h0
  refine ⟨fun e => ?_, fun e => ?_⟩
  · exact real_of_abs_lt (a0 e) (Host.reduce_andi_all _ _ _ _ _ h1 e)
  · exact real_of_abs_lt (a1 e) (Host.reduce_andi_all _ _ _ _ _ h2 e)

end Cert.Finite

end
-- ==== Proof.Math.lean ====
/- The histogram-reweighted loss over the extended reals.

   Every element e carries a loss ℓ e (a real), a bin β e (one of ten) and a validity bit v e. With
     c k = the number of valid elements of bin k,   L k = the sum of ℓ over the valid elements of bin k,
   the weight of bin k is  w k = (if 0 < c k then t / max (c k) 1 else 0) / N  for a total t and a normaliser N.
   Summing w·L over the bins, or summing ℓ e · w (β e) over the valid elements, is the same number, and after the
   division by t the total t has cancelled:  both are  ∑ₖ [0 < c k] · L k / (c k · N).  So two programs that use
   different totals t ≥ 1 agree. -/
import Idealize.ShloMosaic.PureOps.Ideal
import Idealize.ShloMosaic.PureOps.Ideal.Laws
import Idealize.ShloMosaic.Lib.ValueIdx

noncomputable section

namespace Cert.Hist

open Idealize.ShloMosaic

/-- 1 when the element is valid and lies in bin `k`, else 0. -/
def ind (v : BitVec 1) (β k : BitVec 32) : EReal := if v = 1#1 ∧ β = k then 1 else 0

variable {ι : Type} [Fintype ι]

/-- The number of valid elements of bin `k`. -/
def cnt (β : ι → BitVec 32) (v : ι → BitVec 1) (k : BitVec 32) : EReal := ∑ e, ind (v e) (β e) k

/-- The sum of the losses of the valid elements of bin `k`. -/
def lsum (ℓ : ι → EReal) (β : ι → BitVec 32) (v : ι → BitVec 1) (k : BitVec 32) : EReal := ∑ e, ind (v e) (β e) k * ℓ e

/-- The weight of a bin holding `c` valid elements, for the total `t` and the normaliser `N`. -/
def wgt (c t N : EReal) : EReal :=
  Ideal.div (Scalar.select (Ideal.cmp .ogt c 0) (Ideal.div t (max c 1)) 0) N

/-- The f32 pattern of 1.0 denotes the real 1. -/
theorem ofBits_one : Ideal.ofBits .f32 0x3F800000#32 = 1 := by
  -- sign 0, exponent field 127, fraction 0: the value is 2^23 · 2^(127 - 127 - 23)
  simp [Ideal.ofBits, Ideal.ieee]
  rw [← EReal.coe_mul, ← EReal.coe_one]
  congr 1
  norm_num

/-- The coercion of a finite real sum is the sum of the coercions. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ten bin labels are distinct words. -/
theorem ofNat_inj {k k' : Fin 10} (h : BitVec.ofNat 32 k.val = BitVec.ofNat 32 k'.val) : k = k' := by
  apply Fin.ext
  have h1 := k.isLt
  have h2 := k'.isLt
  have h3 := congrArg BitVec.toNat h
  simp only [BitVec.toNat_ofNat] at h3
  omega

/-- The indicator at two bin labels is the coercion of the real indicator of the labels' equality. -/
theorem ind_coe (v1 : BitVec 1) (j k : Fin 10) :
    ind v1 (BitVec.ofNat 32 j.val) (BitVec.ofNat 32 k.val)
      = (((if v1 = 1#1 ∧ j = k then (1 : ℝ) else 0) : ℝ) : EReal) := by
  unfold ind
  by_cases h : v1 = 1#1 ∧ j = k
  · rw [if_pos h, if_pos ⟨h.1, by rw [h.2]⟩, EReal.coe_one]
  · rw [if_neg h, if_neg (fun h' => h ⟨h'.1, ofNat_inj h'.2⟩), EReal.coe_zero]

/-- The weight at real arguments is a real, and the total is a factor of it. -/
theorem wgt_coe (c t N : ℝ) (hN : N ≠ 0) :
    wgt (c : EReal) (t : EReal) (N : EReal)
      = ((t * ((if 0 < c then (max c 1)⁻¹ else 0) / N) : ℝ) : EReal) := by
  unfold wgt
  have hm : max (c : EReal) 1 = ((max c 1 : ℝ) : EReal) := by
    rw [← EReal.coe_one]
    exact (EReal.coe_strictMono.monotone.map_max).symm
  have hm0 : max c 1 ≠ 0 := ne_of_gt (lt_of_lt_of_le one_pos (le_max_right c 1))
  by_cases hc : 0 < c
  · have : Ideal.cmp .ogt (c : EReal) 0 = 1#1 := by
      simp [Ideal.cmp, hc]
    rw [this, ValueIdx.select_one, hm, Ideal.div_coe hm0, Ideal.div_coe hN, ← EReal.coe_mul, ← EReal.coe_mul,
      if_pos hc]
    congr 1
    field_simp
  · have : Ideal.cmp .ogt (c : EReal) 0 = 0#1 := by
      simp [Ideal.cmp, hc]
    rw [this, ValueIdx.select_zero, Ideal.div_coe hN, zero_mul, if_neg hc]
    simp

/-- The real identity: bin by bin with the total `tK`, or element by element with the total `tR`, the totals cancel and
    both sides are the double sum of `G k · [v e = 1 ∧ b e = k] · r e`. -/
theorem real_core (r : ι → ℝ) (b : ι → Fin 10) (v : ι → BitVec 1) (G : Fin 10 → ℝ) (tK tR : ℝ)
    (hK : tK ≠ 0) (hR : tR ≠ 0) :
    (∑ k : Fin 10, tK * G k * ∑ e, (if v e = 1#1 ∧ b e = k then (1 : ℝ) else 0) * r e) * (1 / tK)
      = (∑ e, r e * (if v e = 1#1 then tR * G (b e) else 0)) * (1 / tR) := by
  classical
  have hl : (∑ k : Fin 10, tK * G k * ∑ e, (if v e = 1#1 ∧ b e = k then (1 : ℝ) else 0) * r e) * (1 / tK)
      = ∑ k : Fin 10, ∑ e, G k * ((if v e = 1#1 ∧ b e = k then (1 : ℝ) else 0) * r e) := by
    rw [Finset.sum_mul]
    refine Finset.sum_congr rfl (fun k _ => ?_)
    rw [← Finset.mul_sum]
    field_simp
  have hr' : (∑ e, r e * (if v e = 1#1 then tR * G (b e) else 0)) * (1 / tR)
      = ∑ e, ∑ k : Fin 10, G k * ((if v e = 1#1 ∧ b e = k then (1 : ℝ) else 0) * r e) := by
    rw [Finset.sum_mul]
    refine Finset.sum_congr rfl (fun e _ => ?_)
    by_cases hv : v e = 1#1
    · rw [Finset.sum_eq_single (b e)]
      · rw [if_pos hv, if_pos ⟨hv, rfl⟩]
        field_simp
      · intro k _ hk
        rw [if_neg (fun h => hk h.2.symm), zero_mul, mul_zero]
      · intro h
        exact absurd (Finset.mem_univ _) h
    · rw [if_neg hv, mul_zero, zero_mul]
      symm
      refine Finset.sum_eq_zero (fun k _ => ?_)
      rw [if_neg (fun h => hv h.1), zero_mul, mul_zero]
  rw [hl, hr', Finset.sum_comm]

/-- THE IDENTITY. Per-bin reweighting of the per-bin loss sums equals per-element reweighting, and the total cancels. -/
theorem reweight_eq (ℓ : ι → EReal) (β : ι → BitVec 32) (v : ι → BitVec 1)
    (hℓ : ∀ e, ∃ r : ℝ, ℓ e = (r : EReal))
    (hβ : ∀ e, ∃ k : Fin 10, β e = BitVec.ofNat 32 k.val)
    (tK tR N : ℝ) (hK : 1 ≤ tK) (hR : 1 ≤ tR) (hN : 1 ≤ N) :
    Ideal.div (∑ k : Fin 10, wgt (cnt β v (BitVec.ofNat 32 k.val)) (tK : EReal) (N : EReal) * lsum ℓ β v (BitVec.ofNat 32 k.val)) (tK : EReal) * 1
      = Ideal.div (∑ e, ℓ e * Scalar.select (v e) (wgt (cnt β v (β e)) (tR : EReal) (N : EReal)) 0) (tR : EReal) * 1 := by
  classical
  choose r hr using hℓ
  choose b hb using hβ
  have htK : tK ≠ 0 := ne_of_gt (lt_of_lt_of_le one_pos hK)
  have htR : tR ≠ 0 := ne_of_gt (lt_of_lt_of_le one_pos hR)
  have hN0 : N ≠ 0 := ne_of_gt (lt_of_lt_of_le one_pos hN)
  -- the counts and the loss sums are reals
  have hc : ∀ k : Fin 10, cnt β v (BitVec.ofNat 32 k.val)
      = ((∑ e, (if v e = 1#1 ∧ b e = k then (1 : ℝ) else 0) : ℝ) : EReal) := by
    intro k
    unfold cnt
    rw [coe_sum]
    refine Finset.sum_congr rfl (fun e _ => ?_)
    rw [hb e, ind_coe]
  have hL : ∀ k : Fin 10, lsum ℓ β v (BitVec.ofNat 32 k.val)
      = ((∑ e, (if v e = 1#1 ∧ b e = k then (1 : ℝ) else 0) * r e : ℝ) : EReal) := by
    intro k
    unfold lsum
    rw [coe_sum]
    refine Finset.sum_congr rfl (fun e _ => ?_)
    rw [hb e, ind_coe, hr e, EReal.coe_mul]
  -- the total-free part of the weight of bin k
  let G : Fin 10 → ℝ := fun k =>
    (if 0 < ∑ e, (if v e = 1#1 ∧ b e = k then (1 : ℝ) else 0)
      then (max (∑ e, (if v e = 1#1 ∧ b e = k then (1 : ℝ) else 0)) 1)⁻¹ else 0) / N
  have hw : ∀ (k : Fin 10) (t : ℝ), wgt (cnt β v (BitVec.ofNat 32 k.val)) (t : EReal) (N : EReal)
      = ((t * G k : ℝ) : EReal) := by
    intro k t
    rw [hc k, wgt_coe _ _ _ hN0]
  have hleft : Ideal.div (∑ k : Fin 10, wgt (cnt β v (BitVec.ofNat 32 k.val)) (tK : EReal) (N : EReal)
        * lsum ℓ β v (BitVec.ofNat 32 k.val)) (tK : EReal) * 1
      = (((∑ k : Fin 10, tK * G k * ∑ e, (if v e = 1#1 ∧ b e = k then (1 : ℝ) else 0) * r e) * (1 / tK) : ℝ) : EReal) := by
    rw [mul_one, Ideal.div_coe htK, EReal.coe_mul, coe_sum]
    congr 1
    refine Finset.sum_congr rfl (fun k _ => ?_)
    rw [hw k tK, hL k, ← EReal.coe_mul]
  have hright : Ideal.div (∑ e, ℓ e * Scalar.select (v e) (wgt (cnt β v (β e)) (tR : EReal) (N : EReal)) 0) (tR : EReal) * 1
      = (((∑ e, r e * (if v e = 1#1 then tR * G (b e) else 0)) * (1 / tR) : ℝ) : EReal) := by
    rw [mul_one, Ideal.div_coe htR, EReal.coe_mul, coe_sum]
    congr 1
    refine Finset.sum_congr rfl (fun e _ => ?_)
    rw [hr e, hb e, hw (b e) tR]
    by_cases hv : v e = 1#1
    · rw [hv, ValueIdx.select_one, if_pos rfl, ← EReal.coe_mul]
    · rw [ValueIdx.eq_zero_of_ne_one hv, ValueIdx.select_zero, if_neg (by decide), mul_zero, mul_zero, EReal.coe_zero]
  rw [hleft, hright, real_core r b v G tK tR htK htR]

end Cert.Hist

end
-- ==== Proof.KTail.lean ====
/- The host operations after the region, as one function of the two per-core tables.

   The region leaves two [2, 10, 1024] tables: a count table C and a loss table L (one [10, 1024] slab per core).
   The lines after it sum each table over its axes 0 and 2 into ten per-bin numbers cv b and lv b, take the grand
   total t = max (sum of cv) 1, count the non-empty bins n (an integer), and return
     ( sum over b of  ((if cv b > 0 then t / max (cv b) 1 else 0) / max n 1) * lv b ) / t * 1. -/
import proofs.«411748_j55654186222056_3_alg».proof.Proof.Gen.KernelIdeal.Frame
import proofs.«411748_j55654186222056_3_alg».proof.Proof.Math
import Idealize.ShloMosaic.Lib.Pipeline.Value
import Idealize.ShloMosaic.Lib.StableHlo.Run
import Idealize.ShloMosaic.PureOps.Ideal.Laws
import Idealize.ShloMosaic.Lib.ValueIdx

noncomputable section

namespace Cert.KernelIdeal.KTail

open Cert.KernelIdeal Cert.KernelIdeal.Gen Idealize.ShloMosaic Idealize.ShloMosaic.TcCoe Idealize.SL.Sem Idealize.ShloMosaic.ValueIdx

variable {F : FTy → Type} [FloatOps F]

/-! ## The tail as a pure function -/

/-- A [2, 10, 1024] table summed over its axes 0 and 2, from the initial value 0.0: ten per-bin numbers. -/
def binTot (T : (⟨S2x10x1024, .f32⟩ : BufTy).Contents (Elt F)) : (⟨S10, .f32⟩ : BufTy).Contents (Elt F) :=
  Host.reduceAdd T (constant (F := F) S_ .f32 0x00000000#32) reducesTo_S2x10x1024_S10_d0_2 h_S_

/-- The grand total of the ten counts, at least 1.0. -/
def grand (cv : (⟨S10, .f32⟩ : BufTy).Contents (Elt F)) : (⟨S_, .f32⟩ : BufTy).Contents (Elt F) :=
  maximumf (Host.reduceAdd cv (constant (F := F) S_ .f32 0x00000000#32) reducesTo_S10_S_d0 h_S_) (constant (F := F) S_ .f32 0x3F800000#32)

/-- The number of bins whose count is positive, as a 32-bit integer. -/
def nzInt (cv : (⟨S10, .f32⟩ : BufTy).Contents (Elt F)) : (⟨S_, .i32⟩ : BufTy).Contents (Elt F) :=
  Host.reduce IntOp.addi
    (extui 32 (cmpf (F := F) .ogt cv (broadcastInDim S10 ![] bcast_S_S10 (constant (F := F) S_ .f32 0x00000000#32))) natLt_1_32)
    (constantI S_ 32 0#32) reducesTo_S10_S_d0 h_S_

/-- The per-bin weights before the division by the number of non-empty bins: total / max count 1 where the count is
    positive, 0.0 elsewhere (the called function's select against a broadcast 0.0). -/
def rawW (cv : (⟨S10, .f32⟩ : BufTy).Contents (Elt F)) : (⟨S10, .f32⟩ : BufTy).Contents (Elt F) :=
  select (cmpf (F := F) .ogt cv (broadcastInDim S10 ![] bcast_S_S10 (constant (F := F) S_ .f32 0x00000000#32)))
    (Host.divf (broadcastInDim S10 ![] bcast_S_S10 (grand (F := F) cv))
      (maximumf cv (broadcastInDim S10 ![] bcast_S_S10 (constant (F := F) S_ .f32 0x3F800000#32))))
    (broadcastInDim S10 ![] bcast_S_S10 (id (constant (F := F) S_ .f32 0x00000000#32)))

/-- The lines after the per-bin sums, as a function of the ten counts and the ten loss sums. -/
def tailOf (cv lv : (⟨S10, .f32⟩ : BufTy).Contents (Elt F)) : (⟨S_, .f32⟩ : BufTy).Contents (Elt F) :=
  mulf
    (Host.divf
      (Host.reduceAdd
        (mulf
          (Host.divf (rawW (F := F) cv)
            (broadcastInDim S10 ![] bcast_S_S10
              (maximumf (sitofp (F := F) .f32 (nzInt (F := F) cv)) (constant (F := F) S_ .f32 0x3F800000#32))))
          lv)
        (constant (F := F) S_ .f32 0x00000000#32) reducesTo_S10_S_d0 h_S_)
      (grand (F := F) cv))
    (constant (F := F) S_ .f32 0x3F800000#32)

/-- The host operations after the region as one function of the count table and the loss table. -/
def tail (C L : (⟨S2x10x1024, .f32⟩ : BufTy).Contents (Elt F)) : (⟨S_, .f32⟩ : BufTy).Contents (Elt F) :=
  tailOf (F := F) (binTot (F := F) C) (binTot (F := F) L)

/-! ## The run's result is the tail of the two tables the region leaves -/

variable (m : (ℓ : Loc nD τ sig) → Buf (Elt F) ℓ) (ρ : Dev nD → PrngReg)

set_option maxHeartbeats 1000000 in
/-- What the lines after the region leave in the result buffer: the tail of the region's two output arrays. -/
theorem tail_value (c : Dev nD) :
    Pipeline.afterTail₀ cfgs (dats m) 0 (V0 m) [hostOps1, hostOps1_1, hostOps1_2] c main_v26
      = tail (F := F) ((dats m 0 c).arrAt 3 cfg0.N) ((dats m 0 c).arrAt 4 cfg0.N) := by
  unfold Pipeline.afterTail₀
  simp only [hostOps1, hostOps1_1, hostOps1_2, List.flatten_cons, List.flatten_nil, List.append_nil, List.cons_append, List.nil_append]
  show StableHlo.after _ _ (Proc.devRef .tc main_v26) = _
  after_results_simp
  have e3 : Pipeline.withArrays (cfgs 0).spec c (V0 m c) (fun w => (dats m 0 c).arrAt w (cfgs 0).N) (Proc.devRef .tc main_v3_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v3_1)
      = (dats m 0 c).arrAt 4 cfg0.N := Pipeline.withArrays_arr spec0 launch0.win.arr_inj c _ _ 4
  rw [e3, e4]
  generalize (dats m 0 c).arrAt 3 cfg0.N = C
  generalize (dats m 0 c).arrAt 4 cfg0.N = L
  rfl

/-- Every weakly fair run of @main ends with the result buffer at the tail of the two tables the region leaves, and
    the three argument arrays as launched. -/
theorem run_tail : θ_run defs (onTc (τ := τ) (main (F := F))) ⟨m, fun _ => 0, ρ⟩ (fun r => ∀ c : Dev nD,
      r.2.mem ((c.tc : Thread nD τ).loc main_v26) = tail (F := F) ((dats m 0 c).arrAt 3 cfg0.N) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v26 (Pipeline.mem_restRefs_of main_v26 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The tail at the ideal values -/

/-- The sum of a [2, 10, 1024] table over the entries of bin `b` (axes 0 and 2 summed away). -/
def binSum (T : S2x10x1024.Idx → EReal) (b : S10.Idx) : EReal :=
  ∑ i ∈ Finset.univ.filter (fun i : S2x10x1024.Idx => reducesTo_S2x10x1024_S10_d0_2.drop i = b), T i

/-- The grand total of the ten counts, at least 1. -/
def total (cv : S10.Idx → EReal) : EReal := max (∑ b : S10.Idx, cv b) 1

/-- The number of bins with a positive count, as the 32-bit word the integer sum returns (left unevaluated). -/
def nzCount (cv : S10.Idx → EReal) : BitVec 32 :=
  Host.reduce IntOp.addi
    (extui 32 (cmpf (F := Ideal) .ogt cv (broadcastInDim S10 ![] bcast_S_S10 (constant (F := Ideal) S_ .f32 0x00000000#32))) natLt_1_32)
    (constantI S_ 32 0#32) reducesTo_S10_S_d0 h_S_ ix0

/-- That number as an extended real, at least 1. -/
def normN (cv : S10.Idx → EReal) : EReal := max ((((nzCount cv).toInt : ℝ)) : EReal) 1

/-- A scalar broadcast to the ten bins reads the scalar at every bin. -/
theorem bcast_apply {α : Type} (x : S_.Idx → α) (b : S10.Idx) : broadcastInDim S10 ![] bcast_S_S10 x b = x ix0 :=
  broadcastInDim_apply _ bcast_S_S10 x b ix0 (fun a => a.elim0)

/-- At the ideal values the per-bin sums of a table are the filter sums: the initial value 0.0 adds nothing. -/
theorem binTot_ideal (T : S2x10x1024.Idx → EReal) : binTot (F := Ideal) T = binSum T := by
  funext b
  unfold binTot binSum Host.reduceAdd
  rw [Ideal.hostReduceAdd_def]
  unfold Ideal.hostReduceAdd
  rw [constant_apply, Ideal.ofBits_zero_f32, zero_add]

/-- At the ideal values the grand total is the maximum of the sum of the counts and 1. -/
theorem grand_ideal (cv : S10.Idx → EReal) : grand (F := Ideal) cv ix0 = total cv := by
  unfold grand total Host.reduceAdd
  rw [maximumf_apply, Ideal.hostReduceAdd_def, Ideal.hostReduceAdd_total _ (fun b => b.elim0), constant_apply, constant_apply,
    Ideal.ofBits_zero_f32, Cert.Hist.ofBits_one, zero_add]

/-- At the ideal values a host quotient at an index is the quotient of the elements. -/
theorem hdivf_apply {s : Shape} (a b : FVec Ideal s .f32) (i : s.Idx) : Host.divf a b i = Ideal.div (a i) (b i) := rfl

/-- At the ideal values the weight of bin `b` before the normalisation: total / max count 1 where the count is positive, else 0. -/
theorem rawW_ideal (cv : S10.Idx → EReal) (b : S10.Idx) :
    rawW (F := Ideal) cv b = Scalar.select (Ideal.cmp .ogt (cv b) 0) (Ideal.div (total cv) (max (cv b) 1)) 0 := by
  unfold rawW
  rw [select_apply, cmpf_apply, hdivf_apply, maximumf_apply, bcast_apply, bcast_apply, bcast_apply, bcast_apply, grand_ideal,
    id_eq, constant_apply, constant_apply, Ideal.ofBits_zero_f32, Cert.Hist.ofBits_one, Ideal.cmpf_def]

/-- At the ideal values the number of non-empty bins, converted, at least 1. -/
theorem norm_ideal (cv : S10.Idx → EReal) :
    maximumf (sitofp (F := Ideal) .f32 (nzInt (F := Ideal) cv)) (constant (F := Ideal) S_ .f32 0x3F800000#32) ix0 = normN cv := by
  rw [maximumf_apply, constant_apply, Cert.Hist.ofBits_one, sitofp_apply]
  rfl

/-- At the ideal values the lines after the per-bin sums return the weighted sum of the loss sums over the total. -/
theorem tailOf_ideal (cv lv : S10.Idx → EReal) :
    tailOf (F := Ideal) cv lv ix0
      = Ideal.div (∑ b : S10.Idx, Cert.Hist.wgt (cv b) (total cv) (normN cv) * lv b) (total cv) * 1 := by
  unfold tailOf
  rw [mulf_apply, constant_apply, Cert.Hist.ofBits_one, hdivf_apply, grand_ideal]
  unfold Host.reduceAdd
  rw [Ideal.hostReduceAdd_def, Ideal.hostReduceAdd_total _ (fun b => b.elim0), constant_apply, Ideal.ofBits_zero_f32, zero_add]
  refine congrArg (fun s => Ideal.div s (total cv) * 1) (Finset.sum_congr rfl fun b _ => ?_)
  rw [mulf_apply, hdivf_apply, bcast_apply, norm_ideal, rawW_ideal]
  rfl

/-- THE TAIL AT THE IDEAL VALUES: the weighted sum of the per-bin loss sums, over the total. -/
theorem tail_apply (C L : S2x10x1024.Idx → EReal) :
    tail (F := Ideal) C L ix0
      = Ideal.div (∑ b : S10.Idx, Cert.Hist.wgt (binSum C b) (total (binSum C)) (normN (binSum C)) * binSum L b) (total (binSum C)) * 1 := by
  unfold tail
  rw [binTot_ideal C, binTot_ideal L]
  exact tailOf_ideal _ _

end Cert.KernelIdeal.KTail

end
-- ==== Proof.KDefs.lean ====
/- What one tile adds to the two per-bin tables, as functions of the tile's routed bin indices and losses.

   The kernel routes every element of a [1024, 1024] tile to a bin index (an invalid element to the extra index 10);
   for bin b it sums, down each of the 1024 columns, the indicator "index = b" (the count table's row b) and the
   indicator times the loss (the loss table's row b), and adds the two [1, 1024] rows into row b of two [10, 1024]
   accumulators. -/
import proofs.«411748_j55654186222056_3_alg».proof.Proof.Gen.KernelIdeal.Frame
import Idealize.ShloMosaic.Lib.ValueIdx

noncomputable section

namespace Cert.KernelIdeal.KVal

open Idealize.ShloMosaic Idealize.ShloMosaic.TcCoe Idealize.SL.Sem Idealize.ShloMosaic.ValueIdx
open Cert.KernelIdeal Cert.KernelIdeal.Gen

variable {F : FTy → Type} [FloatOps F]

/-- 1.0 where the tile's routed bin index is `b`, 0.0 elsewhere. -/
def onehot (b : BitVec 32) (v : IVec S1024x1024 32) : FVec F S1024x1024 .f32 :=
  sitofp .f32 (extui 32 (cmpi .eq v (broadcast S1024x1024 b)) natLt_1_32)

/-- Column sums of the indicator of bin `b`: one row of 1024 counts. -/
def colC (b : BitVec 32) (v : IVec S1024x1024 32) : FVec F S1x1024 .f32 :=
  shapeCast S1x1024 (multiReduction .add [0] S1024 (onehot (F := F) b v) 0x00000000#32 reduces_S1024x1024_S1024 (.inl rfl) rfl) shapeCasts_S1024_S1x1024

/-- Column sums of the indicator of bin `b` times the loss: one row of 1024 loss sums. -/
def colL (b : BitVec 32) (v : IVec S1024x1024 32) (l : FVec F S1024x1024 .f32) : FVec F S1x1024 .f32 :=
  shapeCast S1x1024 (multiReduction .add [0] S1024 (mulf (onehot (F := F) b v) l) 0x00000000#32 reduces_S1024x1024_S1024 (.inl rfl) rfl) shapeCasts_S1024_S1x1024

/-- Column `y 1` as an index of a [1, 1024] row. -/
abbrev rowIdx (y : S10x1024.Idx) : S1x1024.Idx := ix2 (0 : Fin 1) (⟨(y 1).val, idx2_lt1 y⟩ : Fin 1024)

/-- What one tile adds to the [10, 1024] count table: entry (b, j) is the number of rows r with index b at (r, j). -/
def tileC (v : IVec S1024x1024 32) : FVec F S10x1024 .f32 :=
  fun y => colC (F := F) (BitVec.ofNat 32 (y 0).val) v (rowIdx y)

/-- What one tile adds to the [10, 1024] loss table. -/
def tileL (v : IVec S1024x1024 32) (l : FVec F S1024x1024 .f32) : FVec F S10x1024 .f32 :=
  fun y => colL (F := F) (BitVec.ofNat 32 (y 0).val) v l (rowIdx y)

/-- The all-zero [10, 1024] table the first grid step of each core stores. -/
abbrev zeroT : FVec F S10x1024 .f32 := broadcast S10x1024 (Scalar.ofBits .f32 0x00000000#32)

end Cert.KernelIdeal.KVal

end
-- ==== Proof.KPiecesC.lean ====
/- The count table after one grid step, case by case.

   At the first step of a core the table is zeroed and the tile's column counts are added; at every later step they
   are added to what the step before left; at the core's last step the table is also copied to the output block.

   The table is written one row at a time: row b is read, the column counts of bin b are added, and the row is
   written back. Ten such rows tile the [10, 1024] table, so together they leave the old table plus the tile's counts
   (`canon_rows`); the three cases differ only in what the rows were read from. -/
import proofs.«411748_j55654186222056_3_alg».proof.Proof.KDefs
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

/-- Both coordinates of `![0, 0]` are zero. -/
private theorem hz2 : (![0, 0] : Fin 2 → Nat) = fun _ => 0 := funext fun a => by fin_cases a <;> rfl

/-- All three coordinates of `![0, 0, 0]` are zero. -/
private theorem hz3 : (![0, 0, 0] : Fin 3 → Nat) = fun _ => 0 := funext fun a => by fin_cases a <;> rfl

/-- A list of stores whose leading stores all agree with one function `G` of the table index reads `G` wherever one
    of those leading stores covers, whatever was stored before them. -/
private theorem canon_of_prefix {Val : EltTy → Type} [∀ e, Nonempty (Val e)] {S : Shape} {e : EltTy} (G : S.Idx → Val e)
    (L' : List (View.Piece Val S e)) :
    ∀ (L : List (View.Piece Val S e)), (∀ p ∈ L, ∀ x : p.1.shape.Idx, p.2 x = G (p.1.emb x)) →
      ∀ y : S.Idx, (∃ p ∈ L, y ∈ p.1.set) → View.canon (L ++ L') y = G y
  | [], _, _, hy => by obtain ⟨p, hp, _⟩ := hy; exact absurd hp List.not_mem_nil
  | p :: L, hL, y, hy => by
    by_cases hm : y ∈ p.1.set
    · obtain ⟨x, rfl⟩ := p.1.exists_idx_of_mem hm
      show View.canon (⟨p.1, p.2⟩ :: (L ++ L')) (p.1.emb x) = _
      rw [View.canon_cons_emb]
      exact hL p List.mem_cons_self x
    · show View.canon (p :: (L ++ L')) y = _
      rw [View.canon_cons_of_not_mem _ _ hm]
      refine canon_of_prefix G L' L (fun q hq => hL q (List.mem_cons_of_mem _ hq)) y ?_
      obtain ⟨q, hq, hyq⟩ := hy
      rcases List.mem_cons.mp hq with rfl | hq'
      · exact absurd hyq hm
      · exact ⟨q, hq', hyq⟩

section Rows

variable (X : Vec F S10x1024 .f32) (v : IVec S1024x1024 32)

/-- The store of row `b` of the count table: the row as it was read, plus the tile's column counts of bin `b`. -/
private abbrev rowPiece (b : Nat) (inb : ∀ a, (![b, 0] : Fin 2 → Nat) a + S1x1024.size a ≤ S10x1024.size a) :
    View.Piece (Elt F) S10x1024 .f32 :=
  ⟨Rect.unit (s := S10x1024) ![b, 0] S1x1024.size inb,
    addf (View.ld X (Rect.unit (s := S10x1024) ![b, 0] S1x1024.size inb)) (colC (F := F) (BitVec.ofNat 32 b) v)⟩

/-- Row `b`'s store holds, at each of its columns, the old entry plus the tile's count there. -/
private theorem rowPiece_agrees (b : Nat) (inb : ∀ a, (![b, 0] : Fin 2 → Nat) a + S1x1024.size a ≤ S10x1024.size a)
    (x : S1x1024.Idx) :
    (rowPiece (F := F) X v b inb).2 x = addf X (tileC (F := F) v) ((rowPiece (F := F) X v b inb).1.emb x) := by
  have h0 : (x 0).val = 0 := by have := idx2_lt0 x; omega
  have e0 : (((Rect.unit (s := S10x1024) ![b, 0] S1x1024.size inb).emb x) 0).val = b := by
    show b + 1 * (x 0).val = b; omega
  have e1 : rowIdx ((Rect.unit (s := S10x1024) ![b, 0] S1x1024.size inb).emb x) = x :=
    Shape.idx_ext₂ (by show 0 = (x 0).val; omega) (by show 0 + 1 * (x 1).val = (x 1).val; omega)
  show FloatOps.addf (X ((Rect.unit (s := S10x1024) ![b, 0] S1x1024.size inb).emb x)) (colC (F := F) (BitVec.ofNat 32 b) v x)
    = FloatOps.addf (X ((Rect.unit (s := S10x1024) ![b, 0] S1x1024.size inb).emb x))
        (colC (F := F) (BitVec.ofNat 32 (((Rect.unit (s := S10x1024) ![b, 0] S1x1024.size inb).emb x) 0).val) v
          (rowIdx ((Rect.unit (s := S10x1024) ![b, 0] S1x1024.size inb).emb x)))
  rw [e0, e1]

/-- An entry of row `b` lies under row `b`'s store. -/
private theorem mem_row (b : Nat) (inb : ∀ a, (![b, 0] : Fin 2 → Nat) a + S1x1024.size a ≤ S10x1024.size a)
    (y : S10x1024.Idx) (h : (y 0).val = b) : y ∈ (Rect.unit (s := S10x1024) ![b, 0] S1x1024.size inb).set := by
  rw [Rect.mem_set_unit]
  intro a
  have h1 := idx2_lt1 y
  match a with
  | ⟨0, _⟩ => show b ≤ (y 0).val ∧ (y 0).val < b + 1; omega
  | ⟨1, _⟩ => show 0 ≤ (y 1).val ∧ (y 1).val < 0 + 1024; omega

/-- Ten row stores, one per bin, over anything stored before: the table reads the old table plus the tile's counts. -/
private theorem canon_rows (L' : List (View.Piece (Elt F) S10x1024 .f32)) (i0 i1 i2 i3 i4 i5 i6 i7 i8 i9) :
    View.canon (rowPiece (F := F) X v 9 i9 :: rowPiece (F := F) X v 8 i8 :: rowPiece (F := F) X v 7 i7
      :: rowPiece (F := F) X v 6 i6 :: rowPiece (F := F) X v 5 i5 :: rowPiece (F := F) X v 4 i4
      :: rowPiece (F := F) X v 3 i3 :: rowPiece (F := F) X v 2 i2 :: rowPiece (F := F) X v 1 i1
      :: rowPiece (F := F) X v 0 i0 :: L') = addf X (tileC (F := F) v) := by
  funext y
  refine canon_of_prefix (addf X (tileC (F := F) v)) L'
    [rowPiece (F := F) X v 9 i9, rowPiece (F := F) X v 8 i8, rowPiece (F := F) X v 7 i7, rowPiece (F := F) X v 6 i6,
      rowPiece (F := F) X v 5 i5, rowPiece (F := F) X v 4 i4, rowPiece (F := F) X v 3 i3, rowPiece (F := F) X v 2 i2,
      rowPiece (F := F) X v 1 i1, rowPiece (F := F) X v 0 i0] ?_ y ?_
  · intro p hp
    simp only [List.mem_cons, List.mem_singleton, List.not_mem_nil, or_false] at hp
    rcases hp with rfl | rfl | rfl | rfl | rfl | rfl | rfl | rfl | rfl | rfl <;> exact rowPiece_agrees X v _ _
  · have hy := idx2_lt0 y
    obtain h | h | h | h | h | h | h | h | h | h :
        (y 0).val = 9 ∨ (y 0).val = 8 ∨ (y 0).val = 7 ∨ (y 0).val = 6 ∨ (y 0).val = 5 ∨ (y 0).val = 4 ∨ (y 0).val = 3
          ∨ (y 0).val = 2 ∨ (y 0).val = 1 ∨ (y 0).val = 0 := by omega
    · exact ⟨rowPiece (F := F) X v 9 i9, List.mem_cons_self, mem_row 9 i9 y h⟩
    · exact ⟨rowPiece (F := F) X v 8 i8, List.mem_cons_of_mem _ List.mem_cons_self, mem_row 8 i8 y h⟩
    · exact ⟨rowPiece (F := F) X v 7 i7, List.mem_cons_of_mem _ (List.mem_cons_of_mem _ List.mem_cons_self), mem_row 7 i7 y h⟩
    · exact ⟨rowPiece (F := F) X v 6 i6, List.mem_cons_of_mem _ (List.mem_cons_of_mem _ (List.mem_cons_of_mem _ List.mem_cons_self)), mem_row 6 i6 y h⟩
    · exact ⟨rowPiece (F := F) X v 5 i5, List.mem_cons_of_mem _ (List.mem_cons_of_mem _ (List.mem_cons_of_mem _ (List.mem_cons_of_mem _ List.mem_cons_self))), mem_row 5 i5 y h⟩
    · exact ⟨rowPiece (F := F) X v 4 i4, List.mem_cons_of_mem _ (List.mem_cons_of_mem _ (List.mem_cons_of_mem _ (List.mem_cons_of_mem _ (List.mem_cons_of_mem _ List.mem_cons_self)))), mem_row 4 i4 y h⟩
    · exact ⟨rowPiece (F := F) X v 3 i3, List.mem_cons_of_mem _ (List.mem_cons_of_mem _ (List.mem_cons_of_mem _ (List.mem_cons_of_mem _ (List.mem_cons_of_mem _ (List.mem_cons_of_mem _ List.mem_cons_self))))), mem_row 3 i3 y h⟩
    · exact ⟨rowPiece (F := F) X v 2 i2, List.mem_cons_of_mem _ (List.mem_cons_of_mem _ (List.mem_cons_of_mem _ (List.mem_cons_of_mem _ (List.mem_cons_of_mem _ (List.mem_cons_of_mem _ (List.mem_cons_of_mem _ List.mem_cons_self)))))), mem_row 2 i2 y h⟩
    · exact ⟨rowPiece (F := F) X v 1 i1, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_row 1 i1 y h⟩
    · exact ⟨rowPiece (F := F) X v 0 i0, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_row 0 i0 y h⟩

end Rows

/-! The row stored for bin `b` is the row read plus the column counts of bin `b`, for each of the ten bins. -/

private theorem pay_bin0 (x0 x1 : Vec F S1024x1024 .f32) (x2 : Vec F S1024x1024 .i32) (r : Vec F S1x1024 .f32) :
    k0_pay13 (k0_pay11 x0 x1 x2) r = addf r (colC (F := F) (BitVec.ofNat 32 0) (k0_pay9 x0 x1 x2)) := shapeCast_self _ _
private theorem pay_bin1 (v : IVec S1024x1024 32) (r : Vec F S1x1024 .f32) :
    k0_pay16 v r = addf r (colC (F := F) (BitVec.ofNat 32 1) v) := shapeCast_self _ _
private theorem pay_bin2 (v : IVec S1024x1024 32) (r : Vec F S1x1024 .f32) :
    k0_pay21 (k0_pay19 (F := F) v) r = addf r (colC (F := F) (BitVec.ofNat 32 2) v) := shapeCast_self _ _
private theorem pay_bin3 (v : IVec S1024x1024 32) (r : Vec F S1x1024 .f32) :
    k0_pay24 v r = addf r (colC (F := F) (BitVec.ofNat 32 3) v) := shapeCast_self _ _
private theorem pay_bin4 (v : IVec S1024x1024 32) (r : Vec F S1x1024 .f32) :
    k0_pay27 (k0_pay26 (F := F) v) r = addf r (colC (F := F) (BitVec.ofNat 32 4) v) := shapeCast_self _ _
private theorem pay_bin5 (v : IVec S1024x1024 32) (r : Vec F S1x1024 .f32) :
    k0_pay30 v r = addf r (colC (F := F) (BitVec.ofNat 32 5) v) := shapeCast_self _ _
private theorem pay_bin6 (v : IVec S1024x1024 32) (r : Vec F S1x1024 .f32) :
    k0_pay33 v (BitVec.ofNat 32 6) r = addf r (colC (F := F) (BitVec.ofNat 32 6) v) := shapeCast_self _ _
private theorem pay_bin7 (v : IVec S1024x1024 32) (r : Vec F S1x1024 .f32) :
    k0_pay36 v r = addf r (colC (F := F) (BitVec.ofNat 32 7) v) := shapeCast_self _ _
private theorem pay_bin8 (v : IVec S1024x1024 32) (r : Vec F S1x1024 .f32) :
    k0_pay40 v r = addf r (colC (F := F) (BitVec.ofNat 32 8) v) := shapeCast_self _ _
private theorem pay_bin9 (v : IVec S1024x1024 32) (r : Vec F S1x1024 .f32) :
    k0_pay44 v r = addf r (colC (F := F) (BitVec.ofNat 32 9) v) := shapeCast_self _ _

/-- A load of the whole table reads what the stores before it left. -/
private theorem readCov_whole {sg : RefSig} {κ : Kind} {sp : Space} (vw : View sg κ sp S10x1024 .f32)
    (L : List (View.Piece (Elt F) S10x1024 .f32)) (iW : ∀ a, (![0, 0] : Fin 2 → Nat) a + S10x1024.size a ≤ S10x1024.size a) :
    vw.readCov L (Rect.unit (s := S10x1024) ![0, 0] S10x1024.size iW).toLoadRect = View.canon L := by
  rw [View.readCov_eq_canon']
  exact View.ld_unit_zero hz2 iW (View.canon L)

/-- The zero table the first step stores, whichever way it is spelt. -/
private theorem pay4_eq : (k0_pay4 : FVec F S10x1024 .f32) = zeroT (F := F) := shapeCast_self _ _

/-- A load of row `b` does not see an earlier store of another row `k`. -/
private theorem readCov_skip_row {sg : RefSig} {κ : Kind} {sp : Space} (vw : View sg κ sp S10x1024 .f32) (k b : Nat) (hkb : k ≠ b)
    (ik : ∀ a, (![k, 0] : Fin 2 → Nat) a + (![1, 1024] : Fin 2 → Nat) a ≤ S10x1024.size a)
    (ib : ∀ a, (![b, 0] : Fin 2 → Nat) a + (![1, 1024] : Fin 2 → Nat) a ≤ S10x1024.size a)
    (w : (Rect.unit (s := S10x1024) ![k, 0] ![1, 1024] ik).shape.Idx → Elt F .f32) (L : List (View.Piece (Elt F) S10x1024 .f32)) :
    vw.readCov ((⟨Rect.unit (s := S10x1024) ![k, 0] ![1, 1024] ik, w⟩ : View.Piece (Elt F) S10x1024 .f32) :: L)
        (Rect.unit (s := S10x1024) ![b, 0] ![1, 1024] ib).toLoadRect
      = vw.readCov L (Rect.unit (s := S10x1024) ![b, 0] ![1, 1024] ib).toLoadRect := by
  rw [View.readCov_eq_canon', View.readCov_eq_canon']
  funext j
  refine View.canon_cons_of_not_mem _ _ ?_
  intro hm
  have hm' : (Rect.unit (s := S10x1024) ![b, 0] ![1, 1024] ib).toLoadRect.idx j
      ∈ (Rect.unit (s := S10x1024) ![k, 0] ![1, 1024] ik).set := hm
  rw [Rect.mem_set_unit] at hm'
  have h : k ≤ b + 1 * (j 0).val ∧ b + 1 * (j 0).val < k + 1 := hm' (0 : Fin 2)
  have h0 : (j 0).val < 1 := (j 0).isLt
  omega

/-- A load of row `b` straight after the zeroing store reads row `b` of the zero table. -/
private theorem readCov_zero_row {sg : RefSig} {κ : Kind} {sp : Space} (vw : View sg κ sp S10x1024 .f32) (b : Nat)
    (iZ : ∀ a, (![0, 0] : Fin 2 → Nat) a + (![10, 1024] : Fin 2 → Nat) a ≤ S10x1024.size a)
    (ib : ∀ a, (![b, 0] : Fin 2 → Nat) a + (![1, 1024] : Fin 2 → Nat) a ≤ S10x1024.size a) :
    vw.readCov [(⟨Rect.unit (s := S10x1024) ![0, 0] ![10, 1024] iZ, k0_pay4⟩ : View.Piece (Elt F) S10x1024 .f32)]
        (Rect.unit (s := S10x1024) ![b, 0] ![1, 1024] ib).toLoadRect
      = View.ld (zeroT (F := F)) (Rect.unit (s := S10x1024) ![b, 0] ![1, 1024] ib) := by
  rw [View.readCov_eq_canon', View.canon_unit_zero (S := S10x1024) hz2 iZ, pay4_eq]

/-- First step of a core: the count table holds the tile's column counts over zero. -/
theorem sA0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : cond0_0 i) (hc1 : ¬cond0_1 i)
    (x0 : Vec F S1024x1024 .f32) (x1 : Vec F S1024x1024 .f32) (x2 : Vec F S1024x1024 .i32) :
    sout0_A_0 c i arg2 harg2 arg3 harg3 arg4 harg4 arg5 harg5 arg6 harg6 arg7 harg7 arg8 harg8 hc0 hc1 x0 x1 x2 = addf (zeroT (F := F)) (tileC (F := F) (k0_pay9 x0 x1 x2)) := by
  unfold sout0_A_0
  rw [View.read_writes_junk_eq_canon]
  unfold kernelRun0_A
  dsimp only
  sl_unfold_words
  simp only [View.readAt_eq_ld, harg2.read_unread, harg3.read_unread, harg4.read_unread, harg7.read_unread,
    View.ld_unit_zero (S := S1024x1024) hz2, pay_bin0, pay_bin1, pay_bin2, pay_bin3, pay_bin4, pay_bin5, pay_bin6, pay_bin7,
    pay_bin8, pay_bin9]
  -- every row is read after the zeroing store and after the stores of the rows before it, which leave it alone
  simp (disch := decide) only [↓ readCov_skip_row, ↓ readCov_zero_row]
  exact canon_rows (zeroT (F := F)) (k0_pay9 x0 x1 x2) [_] _ _ _ _ _ _ _ _ _ _

/-- A middle step: the tile's column counts are added to the table the step before left. -/
theorem sB0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : ¬cond0_0 i) (hc1 : ¬cond0_1 i)
    (x0 : Vec F S1024x1024 .f32) (x1 : Vec F S1024x1024 .f32) (x2 : Vec F S1024x1024 .i32) (xs0 : Vec F S10x1024 .f32) (xs1 : Vec F S10x1024 .f32) :
    sout0_B_0 c i arg2 harg2 arg3 harg3 arg4 harg4 arg5 harg5 arg6 harg6 arg7 harg7 arg8 harg8 hc0 hc1 x0 x1 x2 xs0 xs1 = addf xs0 (tileC (F := F) (k0_pay9 x0 x1 x2)) := by
  unfold sout0_B_0
  rw [View.read_writes_junk_eq_canon]
  unfold kernelRun0_B
  dsimp only
  sl_unfold_words
  simp only [View.readAt_eq_ld, harg2.read_unread, harg3.read_unread, harg4.read_unread, harg7.read_unread,
    View.ld_unit_zero (S := S1024x1024) hz2, pay_bin0, pay_bin1, pay_bin2, pay_bin3, pay_bin4, pay_bin5, pay_bin6, pay_bin7,
    pay_bin8, pay_bin9]
  exact canon_rows xs0 (k0_pay9 x0 x1 x2) [] _ _ _ _ _ _ _ _ _ _

/-- The last step of a core: the same addition. -/
theorem sC0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : ¬cond0_0 i) (hc1 : cond0_1 i)
    (x0 : Vec F S1024x1024 .f32) (x1 : Vec F S1024x1024 .f32) (x2 : Vec F S1024x1024 .i32) (xs0 : Vec F S10x1024 .f32) (xs1 : Vec F S10x1024 .f32) :
    sout0_C_0 c i arg2 harg2 arg3 harg3 arg4 harg4 arg5 harg5 arg6 harg6 arg7 harg7 arg8 harg8 hc0 hc1 x0 x1 x2 xs0 xs1 = addf xs0 (tileC (F := F) (k0_pay9 x0 x1 x2)) := by
  unfold sout0_C_0
  rw [View.read_writes_junk_eq_canon]
  unfold kernelRun0_C
  dsimp only
  sl_unfold_words
  simp only [View.readAt_eq_ld, harg2.read_unread, harg3.read_unread, harg4.read_unread, harg7.read_unread,
    View.ld_unit_zero (S := S1024x1024) hz2, pay_bin0, pay_bin1, pay_bin2, pay_bin3, pay_bin4, pay_bin5, pay_bin6, pay_bin7,
    pay_bin8, pay_bin9]
  exact canon_rows xs0 (k0_pay9 x0 x1 x2) [] _ _ _ _ _ _ _ _ _ _

/-- The last step of a core also copies the finished count table to the output block, as [1, 10, 1024]. -/
theorem oC3 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : ¬cond0_0 i) (hc1 : cond0_1 i)
    (x0 : Vec F S1024x1024 .f32) (x1 : Vec F S1024x1024 .f32) (x2 : Vec F S1024x1024 .i32) (xs0 : Vec F S10x1024 .f32) (xs1 : Vec F S10x1024 .f32) :
    out0_C_3 c i arg2 harg2 arg3 harg3 arg4 harg4 arg5 harg5 arg6 harg6 arg7 harg7 arg8 harg8 hc0 hc1 x0 x1 x2 xs0 xs1 = shapeCast S1x10x1024 (addf xs0 (tileC (F := F) (k0_pay9 x0 x1 x2))) shapeCasts_S10x1024_S1x10x1024 := by
  unfold out0_C_3
  rw [View.read_writes_junk_eq_canon]
  unfold kernelRun0_C
  dsimp only
  sl_unfold_words
  simp only [View.readAt_eq_ld, harg2.read_unread, harg3.read_unread, harg4.read_unread, harg7.read_unread,
    View.ld_unit_zero (S := S1024x1024) hz2, pay_bin0, pay_bin1, pay_bin2, pay_bin3, pay_bin4, pay_bin5, pay_bin6, pay_bin7,
    pay_bin8, pay_bin9]
  -- the one store covers the block; what it stores is the whole table, read after the ten row stores
  rw [View.canon_unit_zero (S := S1x10x1024) hz3]
  unfold k0_pay2
  rw [readCov_whole, canon_rows xs0 (k0_pay9 x0 x1 x2) []]

end Cert.KernelIdeal.KVal

end
-- ==== Proof.KPiecesL.lean ====
/- The loss table after one grid step, case by case: as the count table, with each indicator multiplied by the
   element's loss before the column sums.

   Every case stores the ten rows of the table one by one, row b receiving the row b it loaded plus the tile's column
   loss sums of bin b. One lemma (row_piece) says such a row is row b of "table + whole tile contribution"; the ten
   stores, listed once (rowsL), therefore read back as that sum (canon_rowsL). A middle or last step loads the rows
   of the table the step before left; the first step loads them from the table it has just zeroed, where the earlier
   row stores of the same step lie on other rows and the zero store reads zero (readCov_zero), so its ten stores are
   the same list over the zero table, stacked on the zero store they cover (canon_append_of_cover). The last step's
   output block is the whole table loaded after the ten stores, viewed as [1, 10, 1024]. -/
import proofs.«411748_j55654186222056_3_alg».proof.Proof.KDefs
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

private theorem hz2 : (![0, 0] : Fin 2 → Nat) = fun _ => 0 := funext fun a => by fin_cases a <;> rfl

/-- An element of row piece b sits in row b of the table, -/
private theorem row_emb0 (b : Nat) (inb : ∀ a, (![b, 0] : Fin 2 → Nat) a + S1x1024.size a ≤ S10x1024.size a) (x : S1x1024.Idx) :
    (((Rect.unit (s := S10x1024) ![b, 0] S1x1024.size inb).emb x) 0).val = b := by
  have h : (x 0).val < 1 := (x 0).isLt
  show b + 1 * (x 0).val = b
  omega

/-- and in the column its own second coordinate names. -/
private theorem row_idx (b : Nat) (inb : ∀ a, (![b, 0] : Fin 2 → Nat) a + S1x1024.size a ≤ S10x1024.size a) (x : S1x1024.Idx) :
    rowIdx ((Rect.unit (s := S10x1024) ![b, 0] S1x1024.size inb).emb x) = x := by
  funext a
  match a with
  | ⟨0, _⟩ => exact Fin.ext (by have h : (x 0).val < 1 := (x 0).isLt; show 0 = (x 0).val; omega)
  | ⟨1, _⟩ => exact Fin.ext (by show 0 + 1 * (x 1).val = (x 1).val; omega)

/-- Row b of the table (w) plus the tile's column loss sums of bin b, stored as row b, is row b of the whole table
    plus the whole tile's contribution. -/
private theorem row_piece (b : Nat) (inb : ∀ a, (![b, 0] : Fin 2 → Nat) a + S1x1024.size a ≤ S10x1024.size a)
    (xs1 : Vec F S10x1024 .f32) (v : IVec S1024x1024 32) (l : FVec F S1024x1024 .f32) (h : S1x1024.ShapeCasts S1x1024)
    (w : FVec F S1x1024 .f32) (hw : ∀ x, w x = xs1 ((Rect.unit (s := S10x1024) ![b, 0] S1x1024.size inb).emb x))
    (x : S1x1024.Idx) :
    shapeCast S1x1024 (addf w (colL (F := F) (BitVec.ofNat 32 b) v l)) h x
      = addf xs1 (tileL (F := F) v l) ((Rect.unit (s := S10x1024) ![b, 0] S1x1024.size inb).emb x) := by
  rw [shapeCast_self]
  show FloatOps.addf (w x) (colL (F := F) (BitVec.ofNat 32 b) v l x)
    = FloatOps.addf (xs1 ((Rect.unit (s := S10x1024) ![b, 0] S1x1024.size inb).emb x))
        (colL (F := F) (BitVec.ofNat 32 (((Rect.unit (s := S10x1024) ![b, 0] S1x1024.size inb).emb x) 0).val) v l
          (rowIdx ((Rect.unit (s := S10x1024) ![b, 0] S1x1024.size inb).emb x)))
  rw [row_emb0, row_idx, hw]

/-- The ten row stores of one grid step into the loss table holding xs1, last store first: row b receives the
    loaded row b plus the tile's column loss sums of bin b. -/
private def rowsL (x0 x1 : Vec F S1024x1024 .f32) (x2 : Vec F S1024x1024 .i32) (xs1 : Vec F S10x1024 .f32) :
    List (View.Piece (Elt F) S10x1024 .f32) :=
  [⟨Rect.unit ![9, 0] ![1, 1024] inb_S10x1024_S1x1024_9_0,
      k0_pay1 (k0_pay43 (k0_pay8 x0 x1) (k0_pay9 x0 x1 x2)) (View.ld xs1 (Rect.unit ![9, 0] ![1, 1024] inb_S10x1024_S1x1024_9_0))⟩,
    ⟨Rect.unit ![8, 0] ![1, 1024] inb_S10x1024_S1x1024_8_0,
      k0_pay41 (k0_pay8 x0 x1) (k0_pay9 x0 x1 x2) (View.ld xs1 (Rect.unit ![8, 0] ![1, 1024] inb_S10x1024_S1x1024_8_0))⟩,
    ⟨Rect.unit ![7, 0] ![1, 1024] inb_S10x1024_S1x1024_7_0,
      k0_pay38 (k0_pay37 (k0_pay8 x0 x1) (k0_pay9 x0 x1 x2) (View.ld xs1 (Rect.unit ![7, 0] ![1, 1024] inb_S10x1024_S1x1024_7_0)))⟩,
    ⟨Rect.unit ![6, 0] ![1, 1024] inb_S10x1024_S1x1024_6_0,
      k0_pay34 (k0_pay8 x0 x1) (k0_pay9 x0 x1 x2) (6#32) (View.ld xs1 (Rect.unit ![6, 0] ![1, 1024] inb_S10x1024_S1x1024_6_0))⟩,
    ⟨Rect.unit ![5, 0] ![1, 1024] inb_S10x1024_S1x1024_5_0,
      k0_pay31 (k0_pay8 x0 x1) (k0_pay9 x0 x1 x2) (View.ld xs1 (Rect.unit ![5, 0] ![1, 1024] inb_S10x1024_S1x1024_5_0))⟩,
    ⟨Rect.unit ![4, 0] ![1, 1024] inb_S10x1024_S1x1024_4_0,
      k0_pay28 (k0_pay8 x0 x1) (k0_pay26 (k0_pay9 x0 x1 x2)) (View.ld xs1 (Rect.unit ![4, 0] ![1, 1024] inb_S10x1024_S1x1024_4_0))⟩,
    ⟨Rect.unit ![3, 0] ![1, 1024] inb_S10x1024_S1x1024_3_0,
      k0_pay25 (k0_pay8 x0 x1) (k0_pay9 x0 x1 x2) (View.ld xs1 (Rect.unit ![3, 0] ![1, 1024] inb_S10x1024_S1x1024_3_0))⟩,
    ⟨Rect.unit ![2, 0] ![1, 1024] inb_S10x1024_S1x1024_2_0,
      k0_pay22 (k0_pay20 (k0_pay8 x0 x1) (k0_pay9 x0 x1 x2)) (View.ld xs1 (Rect.unit ![2, 0] ![1, 1024] inb_S10x1024_S1x1024_2_0))⟩,
    ⟨Rect.unit ![1, 0] ![1, 1024] inb_S10x1024_S1x1024_1_0,
      k0_pay17 (k0_pay8 x0 x1) (k0_pay9 x0 x1 x2) (View.ld xs1 (Rect.unit ![1, 0] ![1, 1024] inb_S10x1024_S1x1024_1_0))⟩,
    ⟨Rect.unit ![0, 0] ![1, 1024] inb_S10x1024_S1x1024_0_0,
      k0_pay14 (k0_pay12 x0 x1 x2) (View.ld xs1 (Rect.unit ![0, 0] ![1, 1024] inb_S10x1024_S1x1024_0_0))⟩]

/-- Read back, the ten rows are the table plus the whole tile's contribution. -/
private theorem canon_rowsL (x0 x1 : Vec F S1024x1024 .f32) (x2 : Vec F S1024x1024 .i32) (xs1 : Vec F S10x1024 .f32) :
    View.canon (rowsL x0 x1 x2 xs1) = addf xs1 (tileL (F := F) (k0_pay9 x0 x1 x2) (k0_pay8 x0 x1)) := by
  funext y
  refine View.canon_apply_of_pieces _ _ ?_ y (View.cover_of_tiledL (rowsL x0 x1 x2 xs1) S1x1024.size (by sl_kernel_rfl) y)
  intro p hp
  unfold rowsL at hp
  simp only [List.mem_cons, List.mem_singleton, List.not_mem_nil, or_false] at hp
  rcases hp with rfl | rfl | rfl | rfl | rfl | rfl | rfl | rfl | rfl | rfl
  · intro x; exact row_piece 9 _ xs1 _ _ _ _ (fun _ => rfl) x
  · intro x; exact row_piece 8 _ xs1 _ _ _ _ (fun _ => rfl) x
  · intro x; exact row_piece 7 _ xs1 _ _ _ _ (fun _ => rfl) x
  · intro x; exact row_piece 6 _ xs1 _ _ _ _ (fun _ => rfl) x
  · intro x; exact row_piece 5 _ xs1 _ _ _ _ (fun _ => rfl) x
  · intro x; exact row_piece 4 _ xs1 _ _ _ _ (fun _ => rfl) x
  · intro x; exact row_piece 3 _ xs1 _ _ _ _ (fun _ => rfl) x
  · intro x; exact row_piece 2 _ xs1 _ _ _ _ (fun _ => rfl) x
  · intro x; exact row_piece 1 _ xs1 _ _ _ _ (fun _ => rfl) x
  · intro x; exact row_piece 0 _ xs1 _ _ _ _ (fun _ => rfl) x

private theorem hz3 : (![0, 0, 0] : Fin 3 → Nat) = fun _ => 0 := funext fun a => by fin_cases a <;> rfl

/-- Stores made before a list of stores that covers an index do not show there. -/
private theorem canon_append_of_cover (L M : List (View.Piece (Elt F) S10x1024 .f32)) (y : S10x1024.Idx) :
    (∃ p ∈ L, y ∈ p.1.set) → View.canon (L ++ M) y = View.canon L y := by
  induction L with
  | nil => intro h; obtain ⟨p, hp, _⟩ := h; simp at hp
  | cons p L ih =>
    intro h
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem p _ hm, View.canon_cons_of_not_mem p _ hm]
      refine ih ?_
      obtain ⟨q, hq, hyq⟩ := h
      rcases List.mem_cons.mp hq with rfl | hq'
      · exact absurd hyq hm
      · exact ⟨q, hq', hyq⟩

/-- Row b of the freshly zeroed table reads zero. -/
private theorem readCov_zero (v : View sig .tc .vmem S10x1024 .f32) (b : Nat)
    (inb : ∀ a, (![b, 0] : Fin 2 → Nat) a + S1x1024.size a ≤ S10x1024.size a) :
    v.readCov [(⟨Rect.unit ![0, 0] ![10, 1024] inb_S10x1024_S10x1024_0_0, k0_pay5⟩ : View.Piece (Elt F) S10x1024 .f32)]
        (Rect.unit ![b, 0] ![1, 1024] inb).toLoadRect
      = View.ld (Val := Elt F) (e' := .f32) (zeroT (F := F)) (Rect.unit ![b, 0] ![1, 1024] inb) := by
  rw [View.readCov_eq_canon', View.canon_unit_zero hz2]
  unfold k0_pay5
  rw [shapeCast_self]

/-- First step of a core: the loss table holds the tile's column loss sums over zero. -/
theorem sA1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : cond0_0 i) (hc1 : ¬cond0_1 i)
    (x0 : Vec F S1024x1024 .f32) (x1 : Vec F S1024x1024 .f32) (x2 : Vec F S1024x1024 .i32) :
    sout0_A_1 c i arg2 harg2 arg3 harg3 arg4 harg4 arg5 harg5 arg6 harg6 arg7 harg7 arg8 harg8 hc0 hc1 x0 x1 x2 = addf (zeroT (F := F)) (tileL (F := F) (k0_pay9 x0 x1 x2) (k0_pay8 x0 x1)) := by
  unfold sout0_A_1
  rw [View.read_writes_junk_eq_canon]
  unfold kernelRun0_A
  dsimp only
  sl_unfold_words
  simp only [View.readAt_eq_ld, harg2.read_unread, harg3.read_unread, harg4.read_unread, harg8.read_unread, View.ld_unit_zero (S := S1024x1024) hz2]
  -- a row load passes over the earlier stores of the other rows, down to the zero store
  simp (disch := (refine Rect.unit_disjoint 0 (Or.inl ?_); decide)) only [View.readCov_cons_of_disjoint]
  simp only [readCov_zero]
  show View.canon (rowsL x0 x1 x2 (zeroT (F := F)) ++ [_]) = _
  funext y
  rw [canon_append_of_cover _ _ y (View.cover_of_tiledL (rowsL x0 x1 x2 (zeroT (F := F))) S1x1024.size (by sl_kernel_rfl) y), canon_rowsL]

/-- A middle step: the tile's column loss sums are added to the table the step before left. -/
theorem sB1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : ¬cond0_0 i) (hc1 : ¬cond0_1 i)
    (x0 : Vec F S1024x1024 .f32) (x1 : Vec F S1024x1024 .f32) (x2 : Vec F S1024x1024 .i32) (xs0 : Vec F S10x1024 .f32) (xs1 : Vec F S10x1024 .f32) :
    sout0_B_1 c i arg2 harg2 arg3 harg3 arg4 harg4 arg5 harg5 arg6 harg6 arg7 harg7 arg8 harg8 hc0 hc1 x0 x1 x2 xs0 xs1 = addf xs1 (tileL (F := F) (k0_pay9 x0 x1 x2) (k0_pay8 x0 x1)) := by
  unfold sout0_B_1
  rw [View.read_writes_junk_eq_canon]
  unfold kernelRun0_B
  dsimp only
  sl_unfold_words
  simp only [View.readAt_eq_ld, harg2.read_unread, harg3.read_unread, harg4.read_unread, harg8.read_unread, View.ld_unit_zero (S := S1024x1024) hz2]
  exact canon_rowsL x0 x1 x2 xs1

/-- The last step of a core: the same addition. -/
theorem sC1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : ¬cond0_0 i) (hc1 : cond0_1 i)
    (x0 : Vec F S1024x1024 .f32) (x1 : Vec F S1024x1024 .f32) (x2 : Vec F S1024x1024 .i32) (xs0 : Vec F S10x1024 .f32) (xs1 : Vec F S10x1024 .f32) :
    sout0_C_1 c i arg2 harg2 arg3 harg3 arg4 harg4 arg5 harg5 arg6 harg6 arg7 harg7 arg8 harg8 hc0 hc1 x0 x1 x2 xs0 xs1 = addf xs1 (tileL (F := F) (k0_pay9 x0 x1 x2) (k0_pay8 x0 x1)) := by
  unfold sout0_C_1
  rw [View.read_writes_junk_eq_canon]
  unfold kernelRun0_C
  dsimp only
  sl_unfold_words
  simp only [View.readAt_eq_ld, harg2.read_unread, harg3.read_unread, harg4.read_unread, harg8.read_unread, View.ld_unit_zero (S := S1024x1024) hz2]
  exact canon_rowsL x0 x1 x2 xs1

/-- The last step of a core also copies the finished loss table to the output block, as [1, 10, 1024]. -/
theorem oC4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .i32) (harg4 : arg4.IsWhole) (arg5 : Memref sig .tc .vmem S1x10x1024 .f32) (harg5 : arg5.IsWhole) (arg6 : Memref sig .tc .vmem S1x10x1024 .f32) (harg6 : arg6.IsWhole) (arg7 : Memref sig .tc .vmem S10x1024 .f32) (harg7 : arg7.IsWhole) (arg8 : Memref sig .tc .vmem S10x1024 .f32) (harg8 : arg8.IsWhole) (hc0 : ¬cond0_0 i) (hc1 : cond0_1 i)
    (x0 : Vec F S1024x1024 .f32) (x1 : Vec F S1024x1024 .f32) (x2 : Vec F S1024x1024 .i32) (xs0 : Vec F S10x1024 .f32) (xs1 : Vec F S10x1024 .f32) :
    out0_C_4 c i arg2 harg2 arg3 harg3 arg4 harg4 arg5 harg5 arg6 harg6 arg7 harg7 arg8 harg8 hc0 hc1 x0 x1 x2 xs0 xs1 = shapeCast S1x10x1024 (addf xs1 (tileL (F := F) (k0_pay9 x0 x1 x2) (k0_pay8 x0 x1))) shapeCasts_S10x1024_S1x10x1024 := by
  unfold out0_C_4
  rw [View.read_writes_junk_eq_canon]
  unfold kernelRun0_C
  dsimp only
  sl_unfold_words
  simp only [View.readAt_eq_ld, harg2.read_unread, harg3.read_unread, harg4.read_unread, harg8.read_unread, View.ld_unit_zero (S := S1024x1024) hz2]
  rw [View.canon_unit_zero hz3]
  unfold k0_pay3
  -- the whole table loaded after the ten row stores is what they read back as
  rw [View.readCov_eq_canon']
  show shapeCast S1x10x1024 (View.ld (View.canon (rowsL x0 x1 x2 xs1)) (Rect.unit ![0, 0] S10x1024.size inb_S10x1024_S10x1024_0_0)) _ = _
  rw [canon_rowsL, View.ld_unit_zero (S := S10x1024) hz2]

end Cert.KernelIdeal.KVal

end
-- ==== Proof.KAcc.lean ====
/- The two output arrays after the run, as sums over each core's eight grid steps.

   Core q (grid points 8q … 8q+7) zeroes both tables at its first step and adds one tile's column sums per step; at its
   eighth step the tables are written to block q of the outputs. So entry (q, b, j) of the count output is
   0 + ∑_{s < 8} (number of rows r of tile 8q+s routed to bin b in column j), and likewise for the loss output. -/
import proofs.«411748_j55654186222056_3_alg».proof.Proof.KPiecesC
import proofs.«411748_j55654186222056_3_alg».proof.Proof.KPiecesL
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The routed bin indices of the tile the kernel reads at grid position `n` (zero past the grid: never used). -/
def idxAt (c : Dev nD) (n : ℕ) : IVec S1024x1024 32 :=
  if h : n < cfg0.N then k0_pay9 (F := Ideal) (iblk m c 0 ⟨n, h⟩) (iblk m c 1 ⟨n, h⟩) (iblk m c 2 ⟨n, h⟩) else fun _ => 0

/-- The losses of the tile at grid position `n`. -/
def lossAt (c : Dev nD) (n : ℕ) : FVec Ideal S1024x1024 .f32 :=
  if h : n < cfg0.N then k0_pay8 (F := Ideal) (iblk m c 0 ⟨n, h⟩) (iblk m c 1 ⟨n, h⟩) else fun _ => 0

/-- Entry (b, j) of a [10, 1024] table from an index of the [2, 10, 1024] output. -/
abbrev tblIdx (i : S2x10x1024.Idx) : S10x1024.Idx := ix2 (⟨(i 1).val, (i 1).isLt⟩ : Fin 10) (⟨(i 2).val, (i 2).isLt⟩ : Fin 1024)

/-- The count output: block q holds core q's eight tiles' column counts over zero. -/
def Cfin (c : Dev nD) : S2x10x1024.Idx → EReal := fun i =>
  Ideal.ofBits .f32 0x00000000#32 + ∑ s ∈ Finset.range 8, tileC (F := Ideal) (idxAt m c (8 * (i 0).val + s)) (tblIdx i)

/-- The loss output: block q holds core q's eight tiles' column loss sums over zero. -/
def Lfin (c : Dev nD) : S2x10x1024.Idx → EReal := fun i =>
  Ideal.ofBits .f32 0x00000000#32 + ∑ s ∈ Finset.range 8, tileL (F := Ideal) (idxAt m c (8 * (i 0).val + s)) (lossAt m c (8 * (i 0).val + s)) (tblIdx i)

/-- At a grid point the routed indices are those of the point's three input blocks. -/
theorem idxAt_eq (c : Dev nD) (t : Fin cfg0.N) :
    idxAt m c t.val = k0_pay9 (F := Ideal) (iblk m c 0 t) (iblk m c 1 t) (iblk m c 2 t) := dif_pos t.isLt

/-- At a grid point the losses are those of the point's first two input blocks. -/
theorem lossAt_eq (c : Dev nD) (t : Fin cfg0.N) :
    lossAt m c t.val = k0_pay8 (F := Ideal) (iblk m c 0 t) (iblk m c 1 t) := dif_pos t.isLt

/-- The count table after point `t`: zero plus the column sums of the tiles of `t`'s core up to `t`. -/
theorem scrC (c : Dev nD) : ∀ (n : ℕ) (t : Fin cfg0.N), t.val = n → ∀ y : S10x1024.Idx,
    (outsAt0 m c t.val t.isLt).2.2.1 y
      = Ideal.ofBits .f32 0x00000000#32 + ∑ s ∈ Finset.range (t.val % 8 + 1), tileC (F := Ideal) (idxAt m c (8 * (t.val / 8) + s)) y := by
  intro n
  induction n using Nat.strong_induction_on with
  | _ n ih =>
  intro t ht y
  subst ht
  have hN : t.val < 16 := lt_of_lt_of_eq t.isLt (show cfg0.N = 16 from N_0)
  by_cases h0 : t.val % 8 = 0
  · have h1 : ¬t.val % 8 = 7 := by omega
    have e8 : 8 * (t.val / 8) = t.val := by omega
    rw [outsAt0_A m c t h0 h1]
    dsimp only
    rw [sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)]
    rw [addf_apply, h0, Nat.zero_add, Finset.sum_range_one, Nat.add_zero, e8]
    rw [idxAt_eq m c t]
    rfl
  · have hlt : t.val - 1 < cfg0.N := lt_of_le_of_lt (Nat.sub_le _ _) t.isLt
    have ihp := ih (t.val - 1) (by omega) ⟨t.val - 1, hlt⟩ rfl y
    dsimp only at ihp
    have hd : (t.val - 1) / 8 = t.val / 8 := by omega
    have hm : (t.val - 1) % 8 + 1 = t.val % 8 := by omega
    rw [hd, hm] at ihp
    have hdm : 8 * (t.val / 8) + t.val % 8 = t.val := Nat.div_add_mod _ _
    by_cases h1 : t.val % 8 = 7
    · rw [outsAt0_C m c t h0 h1]
      dsimp only
      rw [sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]
      rw [addf_apply, ihp, Finset.sum_range_succ, hdm, add_assoc]
      rw [idxAt_eq m c t]
    · rw [outsAt0_B m c t h0 h1]
      dsimp only
      rw [sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]
      rw [addf_apply, ihp, Finset.sum_range_succ, hdm, add_assoc]
      rw [idxAt_eq m c t]

/-- The loss table after point `t`: zero plus the column sums of the tiles of `t`'s core up to `t`. -/
theorem scrL (c : Dev nD) : ∀ (n : ℕ) (t : Fin cfg0.N), t.val = n → ∀ y : S10x1024.Idx,
    (outsAt0 m c t.val t.isLt).2.2.2 y
      = Ideal.ofBits .f32 0x00000000#32 + ∑ s ∈ Finset.range (t.val % 8 + 1), tileL (F := Ideal) (idxAt m c (8 * (t.val / 8) + s)) (lossAt m c (8 * (t.val / 8) + s)) y := by
  intro n
  induction n using Nat.strong_induction_on with
  | _ n ih =>
  intro t ht y
  subst ht
  have hN : t.val < 16 := lt_of_lt_of_eq t.isLt (show cfg0.N = 16 from N_0)
  by_cases h0 : t.val % 8 = 0
  · have h1 : ¬t.val % 8 = 7 := by omega
    have e8 : 8 * (t.val / 8) = t.val := by omega
    rw [outsAt0_A m c t h0 h1]
    dsimp only
    rw [sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)]
    rw [addf_apply, h0, Nat.zero_add, Finset.sum_range_one, Nat.add_zero, e8]
    rw [idxAt_eq m c t, lossAt_eq m c t]
    rfl
  · have hlt : t.val - 1 < cfg0.N := lt_of_le_of_lt (Nat.sub_le _ _) t.isLt
    have ihp := ih (t.val - 1) (by omega) ⟨t.val - 1, hlt⟩ rfl y
    dsimp only at ihp
    have hd : (t.val - 1) / 8 = t.val / 8 := by omega
    have hm : (t.val - 1) % 8 + 1 = t.val % 8 := by omega
    rw [hd, hm] at ihp
    have hdm : 8 * (t.val / 8) + t.val % 8 = t.val := Nat.div_add_mod _ _
    by_cases h1 : t.val % 8 = 7
    · rw [outsAt0_C m c t h0 h1]
      dsimp only
      rw [sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]
      rw [addf_apply, ihp, Finset.sum_range_succ, hdm, add_assoc]
      rw [idxAt_eq m c t, lossAt_eq m c t]
    · rw [outsAt0_B m c t h0 h1]
      dsimp only
      rw [sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]
      rw [addf_apply, ihp, Finset.sum_range_succ, hdm, add_assoc]
      rw [idxAt_eq m c t, lossAt_eq m c t]

/-- Where window 3's block sits at each grid point: block (t / 8, 0, 0), of full extents. -/
theorem win3_index : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- Window 3's block is never cut: its extents are [1, 10, 1024] at every grid point. -/
theorem win3_xsize : ∀ t : Fin cfg0.N, win0_3.xsize (grid0.coords t) (0 : Fin 3) = 1 ∧ win0_3.xsize (grid0.coords t) (1 : Fin 3) = 10 ∧ win0_3.xsize (grid0.coords t) (2 : Fin 3) = 1024 :=
  (by decide +kernel : ∀ t : Fin grid0.N, win0_3.xsize (grid0.coords t) (0 : Fin 3) = 1 ∧ win0_3.xsize (grid0.coords t) (1 : Fin 3) = 10 ∧ win0_3.xsize (grid0.coords t) (2 : Fin 3) = 1024)

/-- At a core's last step the count output's staging block is the count table after that step, with a leading unit axis. -/
theorem after3_eq (c : Dev nD) (t : Fin cfg0.N) (h0 : ¬t.val % 8 = 0) (h1 : t.val % 8 = 7) :
    (outsAt0 m c t.val t.isLt).1
      = shapeCast S1x10x1024 ((outsAt0 m c t.val t.isLt).2.2.1) shapeCasts_S10x1024_S1x10x1024 := by
  rw [outsAt0_C m c t h0 h1]
  dsimp only
  rw [oC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- What a core's last step writes back is its block of `Cfin`: entry (0, b, j) of the block is the table's (b, j), eight
    tiles over zero, and the block sits at (t / 8, 0, 0) of the output. -/
theorem flushed_eq3 (c : Dev nD) (t : Fin cfg0.N) (hf : (cfg0.win 3).flush t = true) :
    (dats m 0 c).flushed 3 t = ((cfg0.win 3).blk t).view.read (Elt Ideal) (Cfin m c) := by
  have h1 : t.val % 8 = 7 := (flush0_3 t).mp hf
  have h0 : ¬t.val % 8 = 0 := by omega
  have hm8 : t.val % 8 + 1 = 8 := by omega
  show (cfg0.win 3).cut (grid0.coords t) ((dats m 0 c).after 3 t) = _
  rw [after0_3, after3_eq m c t h0 h1]
  funext y
  obtain ⟨i0, i1, i2⟩ := win3_index t
  obtain ⟨x0, x1, x2⟩ := win3_xsize t
  have y0 : (y 0).val < 1 := lt_of_lt_of_eq (y 0).isLt x0
  have y1 : (y 1).val < 10 := lt_of_lt_of_eq (y 1).isLt x1
  have y2 : (y 2).val < 1024 := lt_of_lt_of_eq (y 2).isLt x2
  have e0 : ((((cfg0.win 3).blk t).view.emb y) 0).val = t.val / 8 := by
    show win0_3.index t 0 * 1 + 1 * (y 0).val = _
    rw [i0]; omega
  have e1 : ((((cfg0.win 3).blk t).view.emb y) 1).val = (y 1).val := by
    show win0_3.index t 1 * 10 + 1 * (y 1).val = _
    rw [i1]; omega
  have e2 : ((((cfg0.win 3).blk t).view.emb y) 2).val = (y 2).val := by
    show win0_3.index t 2 * 1024 + 1 * (y 2).val = _
    rw [i2]; omega
  rw [View.read_apply]
  show shapeCast S1x10x1024 ((outsAt0 m c t.val t.isLt).2.2.1) shapeCasts_S10x1024_S1x10x1024 ((cfg0.win 3).xinj (grid0.coords t) y)
    = Cfin m c (((cfg0.win 3).blk t).view.emb y)
  generalize ((cfg0.win 3).blk t).view.emb y = e at e0 e1 e2 ⊢
  have he : tblIdx e = ix2 (⟨(y 1).val, y1⟩ : Fin 10) (⟨(y 2).val, y2⟩ : Fin 1024) := by
    funext a
    match a with
    | ⟨0, _⟩ => exact Fin.ext e1
    | ⟨1, _⟩ => exact Fin.ext e2
  rw [shapeCast_apply _ _ _ (ix2 (⟨(y 1).val, y1⟩ : Fin 10) (⟨(y 2).val, y2⟩ : Fin 1024)) (by
    rw [Shape.rowMajor_val_two, Shape.rowMajor_val_three]
    show (y 1).val * 1024 + (y 2).val = ((y 0).val * 10 + (y 1).val) * 1024 + (y 2).val
    omega)]
  rw [scrC m c t.val t rfl, hm8]
  show _ = Ideal.ofBits .f32 0x00000000#32 + ∑ s ∈ Finset.range 8, tileC (F := Ideal) (idxAt m c (8 * (e 0).val + s)) (tblIdx e)
  rw [he, e0]

/-- Every entry (q, b, j) of the count output lies in the block core q's last step writes back. -/
theorem cover3 (c : Dev nD) (i : S2x10x1024.Idx) :
    ∃ t : Fin cfg0.N, (cfg0.win 3).flush t = true ∧ i ∈ ((cfg0.win 3).blk t).view.set := by
  have hi0 : (i 0).val < 2 := (i 0).isLt
  have hi1 : (i 1).val < 10 := (i 1).isLt
  have hi2 : (i 2).val < 1024 := (i 2).isLt
  have ht : 8 * (i 0).val + 7 < cfg0.N := by rw [show cfg0.N = 16 from N_0]; omega
  refine ⟨⟨8 * (i 0).val + 7, ht⟩, (flush0_3 _).mpr (by show (8 * (i 0).val + 7) % 8 = 7; omega), ?_⟩
  obtain ⟨i0, i1, i2⟩ := win3_index ⟨8 * (i 0).val + 7, ht⟩
  obtain ⟨x0, x1, x2⟩ := win3_xsize ⟨8 * (i 0).val + 7, ht⟩
  have hq : (8 * (i 0).val + 7) / 8 = (i 0).val := by omega
  show i ∈ ((View.whole main_v3_0).slice (win0_3.rect ⟨8 * (i 0).val + 7, ht⟩)).set
  rw [View.set_slice_whole, Rect.mem_set_unit]
  intro a
  match a with
  | ⟨0, _⟩ =>
    show win0_3.index ⟨8 * (i 0).val + 7, ht⟩ 0 * 1 ≤ (i 0 : Nat) ∧ (i 0 : Nat) < win0_3.index ⟨8 * (i 0).val + 7, ht⟩ 0 * 1 + win0_3.xsize (grid0.coords ⟨8 * (i 0).val + 7, ht⟩) 0
    rw [i0, x0]; dsimp only; omega
  | ⟨1, _⟩ =>
    show win0_3.index ⟨8 * (i 0).val + 7, ht⟩ 1 * 10 ≤ (i 1 : Nat) ∧ (i 1 : Nat) < win0_3.index ⟨8 * (i 0).val + 7, ht⟩ 1 * 10 + win0_3.xsize (grid0.coords ⟨8 * (i 0).val + 7, ht⟩) 1
    rw [i1, x1]; omega
  | ⟨2, _⟩ =>
    show win0_3.index ⟨8 * (i 0).val + 7, ht⟩ 2 * 1024 ≤ (i 2 : Nat) ∧ (i 2 : Nat) < win0_3.index ⟨8 * (i 0).val + 7, ht⟩ 2 * 1024 + win0_3.xsize (grid0.coords ⟨8 * (i 0).val + 7, ht⟩) 2
    rw [i2, x2]; omega

/-- After the run the count output array holds `Cfin`. -/
theorem final3 (c : Dev nD) : (dats m 0 c).arrAt 3 cfg0.N = Cfin m c :=
  (dats m 0 c).arrAt_eq_of_cover 3 (Cfin m c) (flushed_eq3 m c) (cover3 c)

/-- Where window 4's block sits at each grid point: block (t / 8, 0, 0), of full extents. -/
theorem win4_index : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- Window 4's block is never cut: its extents are [1, 10, 1024] at every grid point. -/
theorem win4_xsize : ∀ t : Fin cfg0.N, win0_4.xsize (grid0.coords t) (0 : Fin 3) = 1 ∧ win0_4.xsize (grid0.coords t) (1 : Fin 3) = 10 ∧ win0_4.xsize (grid0.coords t) (2 : Fin 3) = 1024 :=
  (by decide +kernel : ∀ t : Fin grid0.N, win0_4.xsize (grid0.coords t) (0 : Fin 3) = 1 ∧ win0_4.xsize (grid0.coords t) (1 : Fin 3) = 10 ∧ win0_4.xsize (grid0.coords t) (2 : Fin 3) = 1024)

/-- At a core's last step the loss output's staging block is the loss table after that step, with a leading unit axis. -/
theorem after4_eq (c : Dev nD) (t : Fin cfg0.N) (h0 : ¬t.val % 8 = 0) (h1 : t.val % 8 = 7) :
    (outsAt0 m c t.val t.isLt).2.1
      = shapeCast S1x10x1024 ((outsAt0 m c t.val t.isLt).2.2.2) shapeCasts_S10x1024_S1x10x1024 := by
  rw [outsAt0_C m c t h0 h1]
  dsimp only
  rw [oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- What a core's last step writes back is its block of `Lfin`: entry (0, b, j) of the block is the table's (b, j), eight
    tiles over zero, and the block sits at (t / 8, 0, 0) of the output. -/
theorem flushed_eq4 (c : Dev nD) (t : Fin cfg0.N) (hf : (cfg0.win 4).flush t = true) :
    (dats m 0 c).flushed 4 t = ((cfg0.win 4).blk t).view.read (Elt Ideal) (Lfin m c) := by
  have h1 : t.val % 8 = 7 := (flush0_4 t).mp hf
  have h0 : ¬t.val % 8 = 0 := by omega
  have hm8 : t.val % 8 + 1 = 8 := by omega
  show (cfg0.win 4).cut (grid0.coords t) ((dats m 0 c).after 4 t) = _
  rw [after0_4, after4_eq m c t h0 h1]
  funext y
  obtain ⟨i0, i1, i2⟩ := win4_index t
  obtain ⟨x0, x1, x2⟩ := win4_xsize t
  have y0 : (y 0).val < 1 := lt_of_lt_of_eq (y 0).isLt x0
  have y1 : (y 1).val < 10 := lt_of_lt_of_eq (y 1).isLt x1
  have y2 : (y 2).val < 1024 := lt_of_lt_of_eq (y 2).isLt x2
  have e0 : ((((cfg0.win 4).blk t).view.emb y) 0).val = t.val / 8 := by
    show win0_4.index t 0 * 1 + 1 * (y 0).val = _
    rw [i0]; omega
  have e1 : ((((cfg0.win 4).blk t).view.emb y) 1).val = (y 1).val := by
    show win0_4.index t 1 * 10 + 1 * (y 1).val = _
    rw [i1]; omega
  have e2 : ((((cfg0.win 4).blk t).view.emb y) 2).val = (y 2).val := by
    show win0_4.index t 2 * 1024 + 1 * (y 2).val = _
    rw [i2]; omega
  rw [View.read_apply]
  show shapeCast S1x10x1024 ((outsAt0 m c t.val t.isLt).2.2.2) shapeCasts_S10x1024_S1x10x1024 ((cfg0.win 4).xinj (grid0.coords t) y)
    = Lfin m c (((cfg0.win 4).blk t).view.emb y)
  generalize ((cfg0.win 4).blk t).view.emb y = e at e0 e1 e2 ⊢
  have he : tblIdx e = ix2 (⟨(y 1).val, y1⟩ : Fin 10) (⟨(y 2).val, y2⟩ : Fin 1024) := by
    funext a
    match a with
    | ⟨0, _⟩ => exact Fin.ext e1
    | ⟨1, _⟩ => exact Fin.ext e2
  rw [shapeCast_apply _ _ _ (ix2 (⟨(y 1).val, y1⟩ : Fin 10) (⟨(y 2).val, y2⟩ : Fin 1024)) (by
    rw [Shape.rowMajor_val_two, Shape.rowMajor_val_three]
    show (y 1).val * 1024 + (y 2).val = ((y 0).val * 10 + (y 1).val) * 1024 + (y 2).val
    omega)]
  rw [scrL m c t.val t rfl, hm8]
  show _ = Ideal.ofBits .f32 0x00000000#32 + ∑ s ∈ Finset.range 8, tileL (F := Ideal) (idxAt m c (8 * (e 0).val + s)) (lossAt m c (8 * (e 0).val + s)) (tblIdx e)
  rw [he, e0]

/-- Every entry (q, b, j) of the loss output lies in the block core q's last step writes back. -/
theorem cover4 (c : Dev nD) (i : S2x10x1024.Idx) :
    ∃ t : Fin cfg0.N, (cfg0.win 4).flush t = true ∧ i ∈ ((cfg0.win 4).blk t).view.set := by
  have hi0 : (i 0).val < 2 := (i 0).isLt
  have hi1 : (i 1).val < 10 := (i 1).isLt
  have hi2 : (i 2).val < 1024 := (i 2).isLt
  have ht : 8 * (i 0).val + 7 < cfg0.N := by rw [show cfg0.N = 16 from N_0]; omega
  refine ⟨⟨8 * (i 0).val + 7, ht⟩, (flush0_4 _).mpr (by show (8 * (i 0).val + 7) % 8 = 7; omega), ?_⟩
  obtain ⟨i0, i1, i2⟩ := win4_index ⟨8 * (i 0).val + 7, ht⟩
  obtain ⟨x0, x1, x2⟩ := win4_xsize ⟨8 * (i 0).val + 7, ht⟩
  have hq : (8 * (i 0).val + 7) / 8 = (i 0).val := by omega
  show i ∈ ((View.whole main_v3_1).slice (win0_4.rect ⟨8 * (i 0).val + 7, ht⟩)).set
  rw [View.set_slice_whole, Rect.mem_set_unit]
  intro a
  match a with
  | ⟨0, _⟩ =>
    show win0_4.index ⟨8 * (i 0).val + 7, ht⟩ 0 * 1 ≤ (i 0 : Nat) ∧ (i 0 : Nat) < win0_4.index ⟨8 * (i 0).val + 7, ht⟩ 0 * 1 + win0_4.xsize (grid0.coords ⟨8 * (i 0).val + 7, ht⟩) 0
    rw [i0, x0]; dsimp only; omega
  | ⟨1, _⟩ =>
    show win0_4.index ⟨8 * (i 0).val + 7, ht⟩ 1 * 10 ≤ (i 1 : Nat) ∧ (i 1 : Nat) < win0_4.index ⟨8 * (i 0).val + 7, ht⟩ 1 * 10 + win0_4.xsize (grid0.coords ⟨8 * (i 0).val + 7, ht⟩) 1
    rw [i1, x1]; omega
  | ⟨2, _⟩ =>
    show win0_4.index ⟨8 * (i 0).val + 7, ht⟩ 2 * 1024 ≤ (i 2 : Nat) ∧ (i 2 : Nat) < win0_4.index ⟨8 * (i 0).val + 7, ht⟩ 2 * 1024 + win0_4.xsize (grid0.coords ⟨8 * (i 0).val + 7, ht⟩) 2
    rw [i2, x2]; omega

/-- After the run the loss output array holds `Lfin`. -/
theorem final4 (c : Dev nD) : (dats m 0 c).arrAt 4 cfg0.N = Lfin m c :=
  (dats m 0 c).arrAt_eq_of_cover 4 (Lfin m c) (flushed_eq4 m c) (cover4 c)

end Cert.KernelIdeal.KVal

end
-- ==== Proof.RefScatter.lean ====
/- The reference's histogram: the scatter-add of the validity bits at the elements' bins is the per-bin count.

   Every element's bin is clip(⌊10·g⌋, 0, 9), a number below ten, so no update of the scatter leaves the ten-entry
   operand; entry k of the result is zero plus the sum of the validity bits (0 or 1) of the elements whose bin is k. -/
import proofs.«411748_j55654186222056_3_alg».proof.Proof.RefRead
import proofs.«411748_j55654186222056_3_alg».proof.Proof.Math
import Idealize.ShloMosaic.Lib.ValueIdx
import Idealize.ShloMosaic.PureOps.Ideal.Laws

noncomputable section

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.ReadP

/-- A word clipped to [0, 9] as signed numbers reads, signed, as a number from 0 to 9. -/
theorem clip_toInt (z : BitVec 32) :
    0 ≤ (IntOp.minsi 9#32 (IntOp.maxsi 0#32 z)).toInt ∧ (IntOp.minsi 9#32 (IntOp.maxsi 0#32 z)).toInt ≤ 9 := by
  have h9 : (9#32 : BitVec 32).toInt = 9 := by decide
  have h0 : (0#32 : BitVec 32).toInt = 0 := by decide
  unfold IntOp.minsi IntOp.maxsi BitVec.slt
  simp only [decide_eq_true_eq]
  split_ifs <;> omega

/-- A word whose signed reading lies in [0, 9] is the word of that number. -/
theorem word_of_range (r : BitVec 32) (h0 : 0 ≤ r.toInt) (h9 : r.toInt ≤ 9) :
    r = BitVec.ofNat 32 (min r.toInt.toNat 9) := by
  apply BitVec.eq_of_toNat_eq
  rw [BitVec.toNat_ofNat]
  have h := BitVec.toInt_eq_toNat_cond r
  have hlt := r.isLt
  split at h <;> omega

variable (x0 x1 : (⟨S64x4x256x256, .f32⟩ : BufTy).Contents (Elt Ideal)) (x2 : (⟨S64x4x256x256, .i32⟩ : BufTy).Contents (Elt Ideal))

/-- The element's loss, bin and validity bit, as the reference computes them. -/
abbrev lossR : S64x4x256x256.Idx → EReal := val_main_v6 (F := Ideal) x0 x1
abbrev binR : S64x4x256x256.Idx → BitVec 32 := val_main_v21 (F := Ideal) x0 x1
abbrev validR : S64x4x256x256.Idx → BitVec 1 := val_main_v14 (F := Ideal) x2

/-- The element's bin as a number below ten (the clamp a gather applies to its start index leaves it alone). -/
def binOf (e : S64x4x256x256.Idx) : Fin 10 := ⟨min (binR x0 x1 e).toInt.toNat 9, by omega⟩

/-- The bin, read at an element: the clip to [0, 9] of the truncated scaled ratio. -/
theorem binR_read (e : S64x4x256x256.Idx) :
    binR x0 x1 e = IntOp.minsi 9#32 (IntOp.maxsi 0#32 (val_main_v20 (F := Ideal) x0 x1 e)) := by
  show val_main_v21 (F := Ideal) x0 x1 e = _
  rw [val_main_v21_apply, val_main_call0_v4_apply, val_main_call0_v3_apply, val_main_c_6_apply,
    val_main_call0_v2_apply, val_main_call0_v1_apply, val_main_call0_v0_apply, val_main_c_5_apply]

/-- The bin's signed reading is a number from 0 to 9. -/
theorem bin_range (e : S64x4x256x256.Idx) : 0 ≤ (binR x0 x1 e).toInt ∧ (binR x0 x1 e).toInt ≤ 9 := by
  rw [binR_read]
  exact clip_toInt _

/-- The bin is one of the ten: clip(·, 0, 9). -/
theorem bin_eq (e : S64x4x256x256.Idx) : binR x0 x1 e = BitVec.ofNat 32 (binOf x0 x1 e).val := by
  have h := bin_range x0 x1 e
  exact word_of_range _ h.1 h.2

/-! ### The scatter's dimension numbers at these shapes

One operand axis of ten entries, inserted and named by the start index's only component; the index array is
[16777216, 1] with the index vector on its axis 1; the updates are [16777216] with no window axis. So update `j` reads
its start index at `[j, 0]`, has window coordinate 0, and lands at that start index read signed, when it is in [0, 10). -/

/-- The index `[j, 0]` of the index array at which update `j` reads its start index. -/
abbrev scIdx (j : S16777216.Idx) : S16777216x1.Idx := fun a => match a with
  | ⟨0, _⟩ => ⟨(j 0).val, (j 0).isLt⟩
  | ⟨1, _⟩ => ⟨0, Nat.one_pos⟩

theorem sc_start {w : Nat} (idx : IVec S16777216x1 w) (j : S16777216.Idx) (a : Fin 1) :
    scatter_S10_S16777216x1_S16777216_n_0_0_1.start j idx a = (idx (scIdx j)).toInt := by
  obtain rfl : a = 0 := Subsingleton.elim _ _
  unfold ScatterDims.start
  rw [dif_pos (show (0 : Fin 1) ∈ scatter_S10_S16777216x1_S16777216_n_0_0_1.scatterDimsToOperandDims from
    List.mem_singleton.mpr rfl)]
  have hsi : scatter_S10_S16777216x1_S16777216_n_0_0_1.siIdx j
      ⟨List.idxOf (0 : Fin 1) scatter_S10_S16777216x1_S16777216_n_0_0_1.scatterDimsToOperandDims,
        List.idxOf_lt_length_iff.2 (List.mem_singleton.mpr rfl)⟩ = scIdx j := by
    funext c; refine Fin.ext ?_
    match c with
    | ⟨0, _⟩ => rfl
    | ⟨1, _⟩ => rfl
  rw [hsi]

theorem sc_window (j : S16777216.Idx) (a : Fin 1) :
    scatter_S10_S16777216x1_S16777216_n_0_0_1.window j a = 0 := by
  obtain rfl : a = 0 := Subsingleton.elim _ _
  unfold ScatterDims.window
  rw [dif_neg (by decide)]

/-- Update `j` lands at entry `b` exactly when its start index, read signed, is `b`. -/
theorem sc_resultIdx {w : Nat} (idx : IVec S16777216x1 w) (j : S16777216.Idx) (b : S10.Idx) :
    scatter_S10_S16777216x1_S16777216_n_0_0_1.resultIdx? j idx = some b ↔ (idx (scIdx j)).toInt = ((b 0).val : Int) := by
  have hb : (b 0).val < 10 := (b 0).isLt
  unfold ScatterDims.resultIdx?
  split
  · rename_i h
    have h0 := h 0
    rw [sc_start, sc_window] at h0
    constructor
    · intro hs
      have hv := congrArg Fin.val (congrFun (Option.some.inj hs) 0)
      change (scatter_S10_S16777216x1_S16777216_n_0_0_1.start j idx 0
        + scatter_S10_S16777216x1_S16777216_n_0_0_1.window j 0).toNat = (b 0).val at hv
      rw [sc_start, sc_window] at hv
      omega
    · intro hs
      congr 1
      funext a
      obtain rfl : a = 0 := Subsingleton.elim _ _
      apply Fin.ext
      show (scatter_S10_S16777216x1_S16777216_n_0_0_1.start j idx 0
        + scatter_S10_S16777216x1_S16777216_n_0_0_1.window j 0).toNat = (b 0).val
      rw [sc_start, sc_window]
      omega
  · rename_i h
    constructor
    · intro hs
      exact absurd hs (by simp)
    · intro hs
      exfalso
      apply h
      intro a
      obtain rfl : a = 0 := Subsingleton.elim _ _
      rw [sc_start, sc_window]
      have : S10.size 0 = 10 := rfl
      omega

/-- The signed reading of the word of a number below ten is the number. -/
theorem toInt_ofNat_small (k : Nat) (hk : k < 10) : (BitVec.ofNat 32 k).toInt = (k : Int) := by
  have h := BitVec.toInt_eq_toNat_cond (BitVec.ofNat 32 k)
  rw [BitVec.toNat_ofNat] at h
  split at h <;> omega

/-- The flat index's element: the reshape's matching of [16777216] with [64, 4, 256, 256] by row-major position. -/
theorem reshape_idx (j : S16777216.Idx) :
    Shape.reshapeEquiv shapeCasts_S64x4x256x256_S16777216 j = idx_main_v23 j :=
  Shape.reshapeEquiv_eq_of_rowMajor _
    (by rewrite [Shape.rowMajor_val_four, Shape.rowMajor_val_one]; have h0 : (j 0).val < 16777216 := (j 0).isLt; show ((((j 0).val) / 262144 * 4 + ((j 0).val) / 65536 % 4) * 256 + ((j 0).val) / 256 % 256) * 256 + ((j 0).val) % 256 = (j 0).val; omega)

/-- The start index update `j` reads is the bin of the flat index's element: a bin is not negative, so the
    wrap-around "bin + 10 where bin < 0" leaves it alone. -/
theorem start_eq_bin (j : S16777216.Idx) :
    val_main_v31 (F := Ideal) x0 x1 (scIdx j) = binR x0 x1 (idx_main_v23 j) := by
  have hj : idx_main_v31 (scIdx j) = j := by
    funext a
    obtain rfl : a = 0 := Subsingleton.elim _ _
    rfl
  have hneg : (binR x0 x1 (idx_main_v23 j)).slt 0#32 = false := by
    have h := (bin_range x0 x1 (idx_main_v23 j)).1
    have h0 : (0#32 : BitVec 32).toInt = 0 := by decide
    unfold BitVec.slt
    rw [decide_eq_false_iff_not]
    omega
  have hc : IntOp.cmpi .slt (val_main_v21 (F := Ideal) x0 x1 (idx_main_v23 j)) 0#32 = 0#1 := by
    show BitVec.ofBool ((binR x0 x1 (idx_main_v23 j)).slt 0#32) = 0#1
    rw [hneg]
    rfl
  rw [val_main_v31_apply, hj, val_main_v30_apply, val_main_v27_apply, val_main_v23_apply, val_main_v26_apply,
    val_main_c_8_apply, hc, select_zero]

/-- Update `j` lands at entry `b` exactly when the bin of the flat index's element is `b`. -/
theorem lands_iff (j : S16777216.Idx) (b : S10.Idx) :
    scatter_S10_S16777216x1_S16777216_n_0_0_1.resultIdx? j (val_main_v31 (F := Ideal) x0 x1) = some b
      ↔ binR x0 x1 (idx_main_v23 j) = BitVec.ofNat 32 (b 0).val := by
  have hb : (b 0).val < 10 := (b 0).isLt
  rw [sc_resultIdx, start_eq_bin]
  constructor
  · intro h
    apply BitVec.eq_of_toInt_eq
    rw [h, toInt_ofNat_small _ hb]
  · intro h
    rw [h, toInt_ofNat_small _ hb]

/-- The update at `j`, counted where it lands at `b`, is the indicator "valid and of bin `b`" of the flat index's element. -/
theorem term_eq (j : S16777216.Idx) (b : S10.Idx) :
    (if scatter_S10_S16777216x1_S16777216_n_0_0_1.resultIdx? j (val_main_v31 (F := Ideal) x0 x1) = some b
      then val_main_v25 (F := Ideal) x2 j else 0)
      = Cert.Hist.ind (validR x2 (idx_main_v23 j)) (binR x0 x1 (idx_main_v23 j)) (BitVec.ofNat 32 (b 0).val) := by
  have hu : val_main_v25 (F := Ideal) x2 j = (((validR x2 (idx_main_v23 j)).toNat : ℝ) : EReal) := by
    rw [val_main_v25_apply, val_main_v24_apply]
    rfl
  unfold Cert.Hist.ind
  by_cases hβ : binR x0 x1 (idx_main_v23 j) = BitVec.ofNat 32 (b 0).val
  · rw [if_pos ((lands_iff x0 x1 j b).2 hβ), hu]
    by_cases hv : validR x2 (idx_main_v23 j) = 1#1
    · rw [if_pos ⟨hv, hβ⟩, hv]
      show (((1 : ℕ) : ℝ) : EReal) = 1
      rw [Nat.cast_one, EReal.coe_one]
    · rw [if_neg (fun h => hv h.1), eq_zero_of_ne_one hv]
      show (((0 : ℕ) : ℝ) : EReal) = 0
      rw [Nat.cast_zero, EReal.coe_zero]
  · rw [if_neg (fun h => hβ ((lands_iff x0 x1 j b).1 h)), if_neg (fun h => hβ h.2)]

/-! ### The accumulating scatter and the re-indexing of a sum, at any shapes -/

/-- The accumulating scatter read at an entry that starts at zero: the sum, over all updates, of the updates
    that land there. -/
theorem scatterAdd_read {s si u : Shape} {w : Nat} (d : ScatterDims s si u) (x : FVec Ideal s .f32) (idx : IVec si w)
    (upd : FVec Ideal u .f32) (i : s.Idx) (hx : x i = 0) :
    Host.scatterAdd (F := Ideal) d x idx upd i = ∑ j, if d.resultIdx? j idx = some i then upd j else 0 := by
  unfold Host.scatterAdd
  rw [Ideal.hostScatterAdd_def]
  unfold Ideal.hostScatterAdd
  rw [hx, zero_add, Finset.sum_filter]

/-- A sum over the multi-indices of one shape, re-indexed along the row-major matching with another shape's. -/
theorem sum_reshape {s t : Shape} (h : t.numel = s.numel) (g : s.Idx → EReal) (f : t.Idx → EReal)
    (hfg : ∀ j, f j = g (Shape.reshapeEquiv h j)) : ∑ j, f j = ∑ e, g e := by
  rw [← Equiv.sum_comp (Shape.reshapeEquiv h) g]
  exact Finset.sum_congr rfl (fun j _ => hfg j)

/-- The reference's histogram is the accumulating scatter of the validity bits, as numbers, at the bins, into ten zeros. -/
theorem v32_unfold (b : S10.Idx) :
    val_main_v32 (F := Ideal) x0 x1 x2 b
      = Host.scatterAdd (F := Ideal) (φ := .f32) scatter_S10_S16777216x1_S16777216_n_0_0_1 (val_main_v22 (F := Ideal))
          (val_main_v31 (F := Ideal) x0 x1) (val_main_v25 (F := Ideal) x2) b := rfl

/-- The operand of the scatter is zero at every entry. -/
theorem v22_zero (b : S10.Idx) : val_main_v22 (F := Ideal) b = 0 := by
  rw [val_main_v22_apply, val_main_cst_7_apply]
  exact Ideal.ofBits_zero_f32

/-- Entry `b` of the scatter-add is the number of valid elements of bin `b`. -/
theorem v32_eq (b : S10.Idx) :
    val_main_v32 (F := Ideal) x0 x1 x2 b = Cert.Hist.cnt (binR x0 x1) (validR x2) (BitVec.ofNat 32 (b 0).val) :=
  (v32_unfold x0 x1 x2 b).trans <|
    (scatterAdd_read scatter_S10_S16777216x1_S16777216_n_0_0_1 (val_main_v22 (F := Ideal))
      (val_main_v31 (F := Ideal) x0 x1) (val_main_v25 (F := Ideal) x2) b (v22_zero b)).trans <|
    sum_reshape shapeCasts_S64x4x256x256_S16777216
      (fun e => Cert.Hist.ind (validR x2 e) (binR x0 x1 e) (BitVec.ofNat 32 (b 0).val)) _
      (fun j => by rw [reshape_idx]; exact term_eq x0 x1 x2 j b)

end Cert.ReferenceIdeal.RefVal

end
-- ==== Proof.Reindex.lean ====
/- Re-indexing the kernel's sums to the array's own index.

   The [64,4,256,256] array is read by the kernel as [16384, 1024] in row-major order and cut into sixteen
   [1024, 1024] tiles, eight per core; a per-bin total over both cores, all 1024 columns, the eight tiles and their
   1024 rows is therefore one sum over every element of the array. -/
import Idealize.ShloMosaic.PureOps.Ideal
import Idealize.ShloMosaic.PureOps.Ideal.Laws
import Idealize.ShloMosaic.Lib.ValueIdx
import Idealize.ShloMosaic.Lib.Pipeline.Value

noncomputable section

namespace Cert.Hist

open Idealize.ShloMosaic Idealize.ShloMosaic.ValueIdx

/-- Row `r`, column `j` of tile `n` (tiles counted mod 16) of the [16384, 1024] flattening, as an index of the
    [64, 4, 256, 256] array: flattened row R = 1024·n + r is (R / 256, R / 64 mod 4, 4·(R mod 64) + j / 256, j mod 256). -/
def elt (n : ℕ) (r j : Fin 1024) : (⟨4, ![64, 4, 256, 256]⟩ : Shape).Idx :=
  ix4 (⟨((n % 16) * 1024 + r.val) / 256, by have := r.isLt; omega⟩ : Fin 64)
      (⟨((n % 16) * 1024 + r.val) / 64 % 4, by omega⟩ : Fin 4)
      (⟨(((n % 16) * 1024 + r.val) % 64) * 4 + j.val / 256, by have := j.isLt; omega⟩ : Fin 256)
      (⟨j.val % 256, by omega⟩ : Fin 256)

/-- The row-major position of `elt n r j` is that of (1024·n + r, j) in [16384, 1024]. -/
theorem elt_rank (n : ℕ) (hn : n < 16) (r j : Fin 1024) :
    (((((elt n r j 0).val * 4 + (elt n r j 1).val) * 256 + (elt n r j 2).val) * 256 + (elt n r j 3).val))
      = (n * 1024 + r.val) * 1024 + j.val := by
  have h0 : (elt n r j 0).val = ((n % 16) * 1024 + r.val) / 256 := rfl
  have h1 : (elt n r j 1).val = ((n % 16) * 1024 + r.val) / 64 % 4 := rfl
  have h2 : (elt n r j 2).val = (((n % 16) * 1024 + r.val) % 64) * 4 + j.val / 256 := rfl
  have h3 : (elt n r j 3).val = j.val % 256 := rfl
  rw [h0, h1, h2, h3]
  have hr := r.isLt
  have hj := j.isLt
  omega

/-- The four coordinates of `elt n r j`, as naturals. -/
theorem elt_v0 (n : ℕ) (r j : Fin 1024) : (elt n r j 0).val = ((n % 16) * 1024 + r.val) / 256 := rfl
theorem elt_v1 (n : ℕ) (r j : Fin 1024) : (elt n r j 1).val = ((n % 16) * 1024 + r.val) / 64 % 4 := rfl
theorem elt_v2 (n : ℕ) (r j : Fin 1024) :
    (elt n r j 2).val = (((n % 16) * 1024 + r.val) % 64) * 4 + j.val / 256 := rfl
theorem elt_v3 (n : ℕ) (r j : Fin 1024) : (elt n r j 3).val = j.val % 256 := rfl

/-- The row of an element in the [16384, 1024] flattening … -/
def rowOf (e : (⟨4, ![64, 4, 256, 256]⟩ : Shape).Idx) : ℕ := (e 0).val * 256 + (e 1).val * 64 + (e 2).val / 4
/-- … and its column. -/
def colOf (e : (⟨4, ![64, 4, 256, 256]⟩ : Shape).Idx) : ℕ := ((e 2).val % 4) * 256 + (e 3).val

theorem rowOf_lt (e : (⟨4, ![64, 4, 256, 256]⟩ : Shape).Idx) : rowOf e < 16384 := by
  have h0 : (e 0).val < 64 := (e 0).isLt
  have h1 : (e 1).val < 4 := (e 1).isLt
  have h2 : (e 2).val < 256 := (e 2).isLt
  unfold rowOf
  omega

theorem colOf_lt (e : (⟨4, ![64, 4, 256, 256]⟩ : Shape).Idx) : colOf e < 1024 := by
  have h3 : (e 3).val < 256 := (e 3).isLt
  unfold colOf
  omega

/-- Row `r` of tile `n` is row 1024·n + r of the flattening, -/
theorem rowOf_elt (n : ℕ) (hn : n < 16) (r j : Fin 1024) : rowOf (elt n r j) = n * 1024 + r.val := by
  have hr := r.isLt
  have hj := j.isLt
  unfold rowOf
  rw [elt_v0, elt_v1, elt_v2]
  omega

/-- its column is the column, -/
theorem colOf_elt (n : ℕ) (r j : Fin 1024) : colOf (elt n r j) = j.val := by
  have hj := j.isLt
  unfold colOf
  rw [elt_v2, elt_v3]
  omega

/-- and every element is the one at its own row and column. -/
theorem elt_rowOf_colOf (e : (⟨4, ![64, 4, 256, 256]⟩ : Shape).Idx) :
    elt (rowOf e / 1024) ⟨rowOf e % 1024, Nat.mod_lt _ (by decide)⟩ ⟨colOf e, colOf_lt e⟩ = e := by
  have h0 : (e 0).val < 64 := (e 0).isLt
  have h1 : (e 1).val < 4 := (e 1).isLt
  have h2 : (e 2).val < 256 := (e 2).isLt
  have h3 : (e 3).val < 256 := (e 3).isLt
  funext a
  match a with
  | ⟨0, _⟩ =>
    apply Fin.ext
    show (elt _ _ _ 0).val = (e 0).val
    rw [elt_v0]
    simp only [rowOf]
    omega
  | ⟨1, _⟩ =>
    apply Fin.ext
    show (elt _ _ _ 1).val = (e 1).val
    rw [elt_v1]
    simp only [rowOf]
    omega
  | ⟨2, _⟩ =>
    apply Fin.ext
    show (elt _ _ _ 2).val = (e 2).val
    rw [elt_v2]
    simp only [rowOf, colOf]
    omega
  | ⟨3, _⟩ =>
    apply Fin.ext
    show (elt _ _ _ 3).val = (e 3).val
    rw [elt_v3]
    simp only [colOf]
    omega

/-- (core, column, tile of the core, row of the tile) ↔ element. -/
def tileEquiv : Fin 2 × Fin 1024 × Fin 8 × Fin 1024 ≃ (⟨4, ![64, 4, 256, 256]⟩ : Shape).Idx where
  toFun p := elt (8 * p.1.val + p.2.2.1.val) p.2.2.2 p.2.1
  invFun e :=
    (⟨rowOf e / 8192, by have := rowOf_lt e; omega⟩, ⟨colOf e, colOf_lt e⟩,
      ⟨rowOf e / 1024 % 8, Nat.mod_lt _ (by decide)⟩, ⟨rowOf e % 1024, Nat.mod_lt _ (by decide)⟩)
  left_inv p := by
    obtain ⟨q, j, s, r⟩ := p
    have hq := q.isLt
    have hs := s.isLt
    have hr := r.isLt
    have hrow : rowOf (elt (8 * q.val + s.val) r j) = (8 * q.val + s.val) * 1024 + r.val :=
      rowOf_elt _ (by omega) r j
    have hcol : colOf (elt (8 * q.val + s.val) r j) = j.val := colOf_elt _ r j
    refine Prod.ext (Fin.ext ?_) (Prod.ext (Fin.ext ?_) (Prod.ext (Fin.ext ?_) (Fin.ext ?_)))
    · show rowOf (elt (8 * q.val + s.val) r j) / 8192 = q.val
      omega
    · exact hcol
    · show rowOf (elt (8 * q.val + s.val) r j) / 1024 % 8 = s.val
      omega
    · show rowOf (elt (8 * q.val + s.val) r j) % 1024 = r.val
      omega
  right_inv e := by
    have hlt := rowOf_lt e
    have hn : 8 * (rowOf e / 8192) + rowOf e / 1024 % 8 = rowOf e / 1024 := by omega
    show elt (8 * (rowOf e / 8192) + rowOf e / 1024 % 8) _ _ = e
    rw [hn]
    exact elt_rowOf_colOf e

/-- Both cores, all columns, eight tiles each, all rows: every element once. -/
theorem sum_tiles {M : Type*} [AddCommMonoid M] (f : (⟨4, ![64, 4, 256, 256]⟩ : Shape).Idx → M) :
    ∑ q : Fin 2, ∑ j : Fin 1024, ∑ s ∈ Finset.range 8, ∑ r : Fin 1024, f (elt (8 * q.val + s) r j) = ∑ e, f e := by
  have hs : ∀ (q : Fin 2) (j : Fin 1024), ∑ s ∈ Finset.range 8, ∑ r : Fin 1024, f (elt (8 * q.val + s) r j)
      = ∑ s : Fin 8, ∑ r : Fin 1024, f (elt (8 * q.val + s.val) r j) :=
    fun q j => (Fin.sum_univ_eq_sum_range (fun s => ∑ r : Fin 1024, f (elt (8 * q.val + s) r j)) 8).symm
  simp only [hs]
  rw [← Equiv.sum_comp tileEquiv f]
  simp only [Fintype.sum_prod_type]
  rfl

/-- A sum over the indices of a [2, 10, 1024] table that drop (axes 0 and 2 removed) to bin `b` is the double sum
    over the core and the column. -/
theorem sum_drop02 {M : Type*} [AddCommMonoid M] (h : (⟨3, ![2, 10, 1024]⟩ : Shape).ReducesTo [0, 2] (⟨1, ![10]⟩ : Shape))
    (T : (⟨3, ![2, 10, 1024]⟩ : Shape).Idx → M) (b : (⟨1, ![10]⟩ : Shape).Idx) :
    ∑ i ∈ Finset.univ.filter (fun i => h.drop i = b), T i
      = ∑ q : Fin 2, ∑ j : Fin 1024, T (ix3 q (⟨(b 0).val, (b 0).isLt⟩ : Fin 10) j) := by
  classical
  -- the one kept axis is axis 1
  have hv : ∀ i : (⟨3, ![2, 10, 1024]⟩ : Shape).Idx, (h.drop i 0 : Nat) = i 1 :=
    fun i => Shape.ReducesTo.drop_apply_val_of_eq h i 0 1
  have key : ∑ i ∈ Finset.univ.filter (fun i => h.drop i = b), T i
      = ∑ p : Fin 2 × Fin 1024, T (ix3 p.1 (⟨(b 0).val, (b 0).isLt⟩ : Fin 10) p.2) := by
    refine Finset.sum_bij' (fun i _ => ((i 0 : Fin 2), (i 2 : Fin 1024)))
      (fun p _ => ix3 p.1 (⟨(b 0).val, (b 0).isLt⟩ : Fin 10) p.2)
      (fun _ _ => Finset.mem_univ _) ?_ ?_ (fun _ _ => rfl) ?_
    · intro p _
      refine Finset.mem_filter.2 ⟨Finset.mem_univ _, ?_⟩
      funext a
      have ha : a = 0 := Subsingleton.elim _ _
      subst ha
      exact Fin.ext (hv _)
    · intro i hi
      have hb : h.drop i = b := (Finset.mem_filter.1 hi).2
      funext a
      match a with
      | ⟨0, _⟩ => rfl
      | ⟨1, _⟩ => exact Fin.ext (by rw [← hb]; exact hv i)
      | ⟨2, _⟩ => rfl
    · intro i hi
      have hb : h.drop i = b := (Finset.mem_filter.1 hi).2
      congr 1
      funext a
      match a with
      | ⟨0, _⟩ => rfl
      | ⟨1, _⟩ => exact Fin.ext (by rw [← hb]; exact (hv i).symm)
      | ⟨2, _⟩ => rfl
  rw [key, Fintype.sum_prod_type]

/-- A sum over the ten-entry index is a sum over `Fin 10`. -/
theorem sum_ten {M : Type*} [AddCommMonoid M] (f : (⟨1, ![10]⟩ : Shape).Idx → M) :
    ∑ b : (⟨1, ![10]⟩ : Shape).Idx, f b = ∑ k : Fin 10, f (ix1 k) := by
  exact (Fintype.sum_equiv
    (⟨fun k => ix1 k, fun b => b 0, fun _ => rfl, fun b => (eq_ix1 b).symm⟩ : Fin 10 ≃ (⟨1, ![10]⟩ : Shape).Idx)
    (fun k => f (ix1 k)) f (fun _ => rfl)).symm

end Cert.Hist

end
-- ==== Proof.BridgeP.lean ====
/- The kernel's tile values are the reference's element values.

   A tile's entry (r, j) at grid position n is the array's element at `elt n r j` (the host reshape to [16384, 1024] and
   the block cut both keep row-major order); there the kernel's loss is the reference's loss, and the kernel's routed
   bin index is the reference's bin for a valid element and the extra index 10 for an invalid one: both programs
   compute √(d² + μ²) − μ and clip(⌊10·|d| / √(d² + μ²)⌋, 0, 9) from d = input − target, the reference with the two
   summands under the root in the other order. -/
import proofs.«411748_j55654186222056_3_alg».proof.Proof.KAcc
import proofs.«411748_j55654186222056_3_alg».proof.Proof.RefScatter
import proofs.«411748_j55654186222056_3_alg».proof.Proof.Reindex

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.KVal
open Cert.ReferenceIdeal.RefVal (lossR binR validR)

variable (m : (ℓ : Loc nD τ sig) → Buf (Elt Ideal) ℓ)

/-- The three argument arrays as the kernel's program holds them on core `c`. -/
abbrev A0 (c : Dev nD) : (⟨Cert.ReferenceIdeal.S64x4x256x256, .f32⟩ : BufTy).Contents (Elt Ideal) := m ((c.tc : Thread nD τ).loc main_arg0)
abbrev A1 (c : Dev nD) : (⟨Cert.ReferenceIdeal.S64x4x256x256, .f32⟩ : BufTy).Contents (Elt Ideal) := m ((c.tc : Thread nD τ).loc main_arg1)
abbrev A2 (c : Dev nD) : (⟨Cert.ReferenceIdeal.S64x4x256x256, .i32⟩ : BufTy).Contents (Elt Ideal) := m ((c.tc : Thread nD τ).loc main_arg2)

/-! ## The host's reshape and the block cut keep row-major order -/

/-- Window 0's block index at grid point t is (t, 0). -/
theorem tile_index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index at grid point t is (t, 0). -/
theorem tile_index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Window 2's block index at grid point t is (t, 0). -/
theorem tile_index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The [16384, 1024] array window 0 reads is the host's reshape of the first argument. -/
theorem held_main_v0 (c : Dev nD) : (V m c main_v0 : S16384x1024.Idx → EReal)
    = shapeCast S16384x1024 (m ((c.tc : Thread nD τ).loc main_arg0)) shapeCasts_S64x4x256x256_S16384x1024 := by
  show StableHlo.after hostOps0 (fun b => m (c, b)) (Proc.devRef .tc main_v0) = _
  after_results
  rfl
/-- The [16384, 1024] array window 1 reads is the host's reshape of the second argument. -/
theorem held_main_v1 (c : Dev nD) : (V m c main_v1 : S16384x1024.Idx → EReal)
    = shapeCast S16384x1024 (m ((c.tc : Thread nD τ).loc main_arg1)) shapeCasts_S64x4x256x256_S16384x1024 := by
  show StableHlo.after hostOps0 (fun b => m (c, b)) (Proc.devRef .tc main_v1) = _
  after_results
  rfl
/-- The [16384, 1024] array window 2 reads is the host's reshape of the third argument. -/
theorem held_main_v2 (c : Dev nD) : (V m c main_v2 : S16384x1024.Idx → BitVec 32)
    = shapeCast S16384x1024 (m ((c.tc : Thread nD τ).loc main_arg2)) shapeCasts_S64x4x256x256_S16384x1024 := by
  show StableHlo.after hostOps0 (fun b => m (c, b)) (Proc.devRef .tc main_v2) = _
  after_results
  rfl

/-- A [16384, 1024] reshape of a [64, 4, 256, 256] array read at (R, j) is the array at the index of the same row-major
    position. -/
theorem cast_read {α : Type} (x : S64x4x256x256.Idx → α) (i : S16384x1024.Idx) (e : S64x4x256x256.Idx)
    (h : (((e 0).val * 4 + (e 1).val) * 256 + (e 2).val) * 256 + (e 3).val = (i 0).val * 1024 + (i 1).val) :
    shapeCast S16384x1024 x shapeCasts_S64x4x256x256_S16384x1024 i = x e :=
  shapeCast_apply x shapeCasts_S64x4x256x256_S16384x1024 i e (by
    rewrite [Shape.rowMajor_val_four, Shape.rowMajor_val_two]; exact h)

/-- Entry (r, j) of the input tile at grid point `t` is the input array's element `elt t r j`. -/
theorem blk0 (c : Dev nD) (t : Fin cfg0.N) (r j : Fin 1024) :
    (iblk m c 0 t : Vec Ideal S1024x1024 .f32) (ix2 r j) = A0 m c (Cert.Hist.elt t.val r j) := by
  unfold iblk
  rw [View.read_apply]
  show V m c main_v0 (((cfg0.win 0).blk t).view.emb (ix2 r j)) = _
  rw [held_main_v0]
  refine cast_read _ _ _ ?_
  rw [Cert.Hist.elt_rank t.val (lt_of_lt_of_eq t.isLt N_0) r j]
  show _ = (win0_0.index t 0 * 1024 + 1 * r.val) * 1024 + (win0_0.index t 1 * 1024 + 1 * j.val)
  rw [(tile_index0 t).1, (tile_index0 t).2]
  omega

theorem blk1 (c : Dev nD) (t : Fin cfg0.N) (r j : Fin 1024) :
    (iblk m c 1 t : Vec Ideal S1024x1024 .f32) (ix2 r j) = A1 m c (Cert.Hist.elt t.val r j) := by
  unfold iblk
  rw [View.read_apply]
  show V m c main_v1 (((cfg0.win 1).blk t).view.emb (ix2 r j)) = _
  rw [held_main_v1]
  refine cast_read _ _ _ ?_
  rw [Cert.Hist.elt_rank t.val (lt_of_lt_of_eq t.isLt N_0) r j]
  show _ = (win0_1.index t 0 * 1024 + 1 * r.val) * 1024 + (win0_1.index t 1 * 1024 + 1 * j.val)
  rw [(tile_index1 t).1, (tile_index1 t).2]
  omega

theorem blk2 (c : Dev nD) (t : Fin cfg0.N) (r j : Fin 1024) :
    (iblk m c 2 t : Vec Ideal S1024x1024 .i32) (ix2 r j) = A2 m c (Cert.Hist.elt t.val r j) := by
  unfold iblk
  rw [View.read_apply]
  show V m c main_v2 (((cfg0.win 2).blk t).view.emb (ix2 r j)) = _
  rw [held_main_v2]
  refine cast_read _ _ _ ?_
  rw [Cert.Hist.elt_rank t.val (lt_of_lt_of_eq t.isLt N_0) r j]
  show _ = (win0_2.index t 0 * 1024 + 1 * r.val) * 1024 + (win0_2.index t 1 * 1024 + 1 * j.val)
  rw [(tile_index2 t).1, (tile_index2 t).2]
  omega

/-! ## The kernel's pointwise values at a tile position -/

/-- The difference of the two tiles at a position. -/
theorem pay6_at (X0 X1 : Vec Ideal S1024x1024 .f32) (y : S1024x1024.Idx) (a b : EReal) (h0 : X0 y = a) (h1 : X1 y = b) :
    k0_pay6 (F := Ideal) X0 X1 y = a - b := by
  unfold k0_pay6
  simp only [shapeCast_self]
  rw [subf_apply, h0, h1]

/-- The root √(d² + μ²) at a position. -/
theorem pay7_at (X0 X1 : Vec Ideal S1024x1024 .f32) (y : S1024x1024.Idx) (a b : EReal) (h0 : X0 y = a) (h1 : X1 y = b) :
    k0_pay7 (F := Ideal) X0 X1 y = Ideal.sqrt ((a - b) * (a - b) + Ideal.ofBits .f32 0x39D1B717#32) := by
  unfold k0_pay7
  show Ideal.sqrt (k0_pay6 (F := Ideal) X0 X1 y * k0_pay6 (F := Ideal) X0 X1 y + Ideal.ofBits .f32 0x39D1B717#32) = _
  rw [pay6_at X0 X1 y a b h0 h1]

/-- The loss √(d² + μ²) − μ at a position. -/
theorem pay8_at (X0 X1 : Vec Ideal S1024x1024 .f32) (y : S1024x1024.Idx) (a b : EReal) (h0 : X0 y = a) (h1 : X1 y = b) :
    k0_pay8 (F := Ideal) X0 X1 y
      = Ideal.sqrt ((a - b) * (a - b) + Ideal.ofBits .f32 0x39D1B717#32) - Ideal.ofBits .f32 0x3CA3D70A#32 := by
  unfold k0_pay8
  show k0_pay7 (F := Ideal) X0 X1 y - Ideal.ofBits .f32 0x3CA3D70A#32 = _
  rw [pay7_at X0 X1 y a b h0 h1]

/-- The routed bin index at a position. -/
theorem pay9_at (X0 X1 : Vec Ideal S1024x1024 .f32) (X2 : Vec Ideal S1024x1024 .i32) (y : S1024x1024.Idx) (a b : EReal) (v : BitVec 32)
    (h0 : X0 y = a) (h1 : X1 y = b) (h2 : X2 y = v) :
    k0_pay9 (F := Ideal) X0 X1 X2 y
      = Scalar.select (IntOp.cmpi .sgt v 0#32)
          (IntOp.minsi 9#32 (IntOp.maxsi 0#32 (FloatOps.fptosi (F := Ideal) (φ := .f32) 32
            (Ideal.div (FloatOps.absf (F := Ideal) (φ := .f32) (a - b)) (Ideal.sqrt ((a - b) * (a - b) + Ideal.ofBits .f32 0x39D1B717#32))
              * Ideal.ofBits .f32 0x41200000#32)))) 10#32 := by
  unfold k0_pay9
  simp only [shapeCast_self]
  show Scalar.select (IntOp.cmpi .sgt (X2 y) 0#32)
          (IntOp.minsi 9#32 (IntOp.maxsi 0#32 (FloatOps.fptosi (F := Ideal) (φ := .f32) 32
            (Ideal.div (FloatOps.absf (F := Ideal) (φ := .f32) (k0_pay6 (F := Ideal) X0 X1 y)) (k0_pay7 (F := Ideal) X0 X1 y)
              * Ideal.ofBits .f32 0x41200000#32)))) 10#32 = _
  rw [pay6_at X0 X1 y a b h0 h1, pay7_at X0 X1 y a b h0 h1, h2]

/-! ## The reference's values at an element -/

section Reference

open Cert.ReferenceIdeal.ReadP

variable (x0 x1 : (⟨Cert.ReferenceIdeal.S64x4x256x256, .f32⟩ : BufTy).Contents (Elt Ideal)) (x2 : (⟨Cert.ReferenceIdeal.S64x4x256x256, .i32⟩ : BufTy).Contents (Elt Ideal))

/-- The reference's difference at an element. -/
theorem ref_v0_at (e : Cert.ReferenceIdeal.S64x4x256x256.Idx) : val_main_v0 (F := Ideal) x0 x1 e = x0 e - x1 e := rfl

/-- The reference's loss at an element: √(d² + μ²) − μ. -/
theorem ref_loss_at (e : Cert.ReferenceIdeal.S64x4x256x256.Idx) :
    val_main_v6 (F := Ideal) x0 x1 e
      = Ideal.sqrt ((x0 e - x1 e) * (x0 e - x1 e) + Ideal.ofBits .f32 0x39D1B717#32) - Ideal.ofBits .f32 0x3CA3D70A#32 := by
  rw [val_main_v6_apply, val_main_v4_apply, val_main_v3_apply, val_main_v1_apply, val_main_v0_apply, val_main_v2_apply,
    val_main_cst_apply, val_main_v5_apply, val_main_cst_0_apply]
  rfl

/-- The reference's bin at an element: clip(⌊10·|d| / √(μ² + d²)⌋, 0, 9). -/
theorem ref_bin_at (e : Cert.ReferenceIdeal.S64x4x256x256.Idx) :
    val_main_v21 (F := Ideal) x0 x1 e
      = IntOp.minsi 9#32 (IntOp.maxsi 0#32 (FloatOps.fptosi (F := Ideal) (φ := .f32) 32
            (Ideal.div (FloatOps.absf (F := Ideal) (φ := .f32) (x0 e - x1 e)) (Ideal.sqrt ((x0 e - x1 e) * (x0 e - x1 e) + Ideal.ofBits .f32 0x39D1B717#32))
              * Ideal.ofBits .f32 0x41200000#32))) := by
  rw [val_main_v21_apply, val_main_call0_v4_apply, val_main_call0_v3_apply, val_main_c_6_apply,
    val_main_call0_v2_apply, val_main_call0_v1_apply, val_main_call0_v0_apply, val_main_c_5_apply,
    val_main_v20_apply, val_main_v19_apply, val_main_v18_apply, val_main_cst_4_apply, val_main_v12_apply,
    val_main_v7_apply, val_main_v11_apply, val_main_v10_apply, val_main_v9_apply, val_main_cst_1_apply,
    val_main_v8_apply, val_main_v0_apply]
  show IntOp.minsi 9#32 (IntOp.maxsi 0#32 (FloatOps.fptosi (F := Ideal) (φ := .f32) 32
            (Ideal.div (FloatOps.absf (F := Ideal) (φ := .f32) (x0 e - x1 e)) (Ideal.sqrt (Ideal.ofBits .f32 0x39D1B717#32 + (x0 e - x1 e) * (x0 e - x1 e)))
              * Ideal.ofBits .f32 0x41200000#32))) = _
  rw [add_comm (Ideal.ofBits .f32 0x39D1B717#32)]

/-- The reference's validity bit at an element: the mask is positive. -/
theorem ref_valid_at (e : Cert.ReferenceIdeal.S64x4x256x256.Idx) :
    val_main_v14 (F := Ideal) x2 e = IntOp.cmpi .sgt (x2 e) 0#32 := by
  rw [val_main_v14_apply, val_main_v13_apply, val_main_c_apply]

end Reference

/-! ## The two agree -/

/-- The kernel's routed bin index at a tile position: the reference's bin if the element is valid, else 10. -/
theorem idxAt_apply (c : Dev nD) (n : ℕ) (hn : n < 16) (r j : Fin 1024) :
    idxAt m c n (ix2 r j)
      = Scalar.select (validR (A2 m c) (Cert.Hist.elt n r j)) (binR (A0 m c) (A1 m c) (Cert.Hist.elt n r j)) 10#32 := by
  have h : n < cfg0.N := lt_of_lt_of_eq hn N_0.symm
  refine (congrFun (idxAt_eq m c ⟨n, h⟩) (ix2 r j)).trans ?_
  refine (pay9_at (iblk m c 0 ⟨n, h⟩ : Vec Ideal S1024x1024 .f32) (iblk m c 1 ⟨n, h⟩ : Vec Ideal S1024x1024 .f32)
    (iblk m c 2 ⟨n, h⟩ : Vec Ideal S1024x1024 .i32) (ix2 r j) _ _ _
    (blk0 m c ⟨n, h⟩ r j) (blk1 m c ⟨n, h⟩ r j) (blk2 m c ⟨n, h⟩ r j)).trans ?_
  show _ = Scalar.select (Cert.ReferenceIdeal.ReadP.val_main_v14 (F := Ideal) (A2 m c) (Cert.Hist.elt n r j))
    (Cert.ReferenceIdeal.ReadP.val_main_v21 (F := Ideal) (A0 m c) (A1 m c) (Cert.Hist.elt n r j)) 10#32
  rw [ref_bin_at, ref_valid_at]

/-- The kernel's loss at a tile position is the reference's loss of that element. -/
theorem lossAt_apply (c : Dev nD) (n : ℕ) (hn : n < 16) (r j : Fin 1024) :
    lossAt m c n (ix2 r j) = lossR (A0 m c) (A1 m c) (Cert.Hist.elt n r j) := by
  have h : n < cfg0.N := lt_of_lt_of_eq hn N_0.symm
  refine (congrFun (lossAt_eq m c ⟨n, h⟩) (ix2 r j)).trans ?_
  refine (pay8_at (iblk m c 0 ⟨n, h⟩ : Vec Ideal S1024x1024 .f32) (iblk m c 1 ⟨n, h⟩ : Vec Ideal S1024x1024 .f32)
    (ix2 r j) _ _ (blk0 m c ⟨n, h⟩ r j) (blk1 m c ⟨n, h⟩ r j)).trans ?_
  exact (ref_loss_at (A0 m c) (A1 m c) (Cert.Hist.elt n r j)).symm

end Cert.Bridge

end
-- ==== Proof.BridgeS.lean ====
/- The kernel's per-bin totals are the reference's per-bin count and loss sum.

   Entry (q, b, j) of a finished table is the sum over core q's eight tiles and their 1024 rows of the indicator that
   the routed index is b (times the loss, for the loss table); the routed index is b < 10 exactly when the element is
   valid and its bin is b; summing over the cores q and the columns j visits every element of the array once. -/
import proofs.«411748_j55654186222056_3_alg».proof.Proof.BridgeP

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.KVal
open Cert.ReferenceIdeal.RefVal (lossR binR validR)

variable (m : (ℓ : Loc nD τ sig) → Buf (Elt Ideal) ℓ)

/-- The indicator of bin `b` at a tile position: 1 where the routed index is `b`, else 0. -/
theorem onehot_apply (b : BitVec 32) (v : IVec S1024x1024 32) (y : S1024x1024.Idx) :
    onehot (F := Ideal) b v y = if v y = b then (1 : EReal) else 0 := by
  unfold onehot
  rw [sitofp_apply, extui_apply]
  show ((((IntOp.cmpi .eq (v y) b).setWidth 32).toInt : ℝ) : EReal) = _
  by_cases h : v y = b
  · have hc : IntOp.cmpi .eq (v y) b = 1#1 := by simp [IntOp.cmpi, h]
    rw [if_pos h, hc]
    have : ((1#1 : BitVec 1).setWidth 32).toInt = 1 := by decide
    rw [this, Int.cast_one, EReal.coe_one]
  · have hc : IntOp.cmpi .eq (v y) b = 0#1 := by
      show BitVec.ofBool (v y == b) = 0#1
      rw [beq_false_of_ne h]
      rfl
    rw [if_neg h, hc]
    have : ((0#1 : BitVec 1).setWidth 32).toInt = 0 := by decide
    rw [this, Int.cast_zero, EReal.coe_zero]

/-- The source index over column `j` with row `r` inserted is (r, j). -/
theorem lift_col (j r : Fin 1024) : reduces_S1024x1024_S1024.lift (ix1 j) r = ix2 r j := by
  funext a
  match a with
  | ⟨0, _⟩ => rfl
  | ⟨1, _⟩ => rfl

/-- Entry (b, j) of a tile's count contribution: the number of rows whose routed index at column j is b. -/
theorem tileC_apply (v : IVec S1024x1024 32) (b : Fin 10) (j : Fin 1024) :
    tileC (F := Ideal) v (ix2 b j) = ∑ r : Fin 1024, (if v (ix2 r j) = BitVec.ofNat 32 b.val then (1 : EReal) else 0) := by
  unfold tileC colC
  refine (shapeCast_apply _ _ _ (ix1 j) ?_).trans ?_
  · rw [Shape.rowMajor_val_one, Shape.rowMajor_val_two]
    show j.val = 0 * 1024 + j.val
    omega
  refine (Ideal.multiReduction_add_single _ _ reduces_S1024x1024_S1024 _ _ (ix1 j)).trans ?_
  show ∑ r : Fin 1024, onehot (F := Ideal) (BitVec.ofNat 32 b.val) v (reduces_S1024x1024_S1024.lift (ix1 j) r) = _
  refine Finset.sum_congr rfl (fun r _ => ?_)
  rw [lift_col, onehot_apply]

/-- Entry (b, j) of a tile's loss contribution. -/
theorem tileL_apply (v : IVec S1024x1024 32) (l : FVec Ideal S1024x1024 .f32) (b : Fin 10) (j : Fin 1024) :
    tileL (F := Ideal) v l (ix2 b j)
      = ∑ r : Fin 1024, (if v (ix2 r j) = BitVec.ofNat 32 b.val then (1 : EReal) else 0) * l (ix2 r j) := by
  unfold tileL colL
  refine (shapeCast_apply _ _ _ (ix1 j) ?_).trans ?_
  · rw [Shape.rowMajor_val_one, Shape.rowMajor_val_two]
    show j.val = 0 * 1024 + j.val
    omega
  refine (Ideal.multiReduction_add_single _ _ reduces_S1024x1024_S1024 _ _ (ix1 j)).trans ?_
  show ∑ r : Fin 1024, mulf (onehot (F := Ideal) (BitVec.ofNat 32 b.val) v) l (reduces_S1024x1024_S1024.lift (ix1 j) r) = _
  refine Finset.sum_congr rfl (fun r _ => ?_)
  rw [lift_col, mulf_apply, onehot_apply]

/-- The routed index equals a bin below ten exactly for a valid element of that bin. -/
theorem routed_ind (v : BitVec 1) (β : BitVec 32) (b : Fin 10) :
    (if Scalar.select v β 10#32 = BitVec.ofNat 32 b.val then (1 : EReal) else 0) = Cert.Hist.ind v β (BitVec.ofNat 32 b.val) := by
  unfold Cert.Hist.ind
  -- the extra index 10 is none of the ten bins
  have h10 : ¬ (10#32 : BitVec 32) = BitVec.ofNat 32 b.val := by
    intro h
    have h1 := congrArg BitVec.toNat h
    have hb := b.isLt
    simp only [BitVec.toNat_ofNat] at h1
    omega
  by_cases hv : v = 1#1
  · rw [hv, select_one]
    by_cases hβ : β = BitVec.ofNat 32 b.val
    · rw [if_pos hβ, if_pos ⟨rfl, hβ⟩]
    · rw [if_neg hβ, if_neg (fun h => hβ h.2)]
  · rw [eq_zero_of_ne_one hv, select_zero, if_neg h10, if_neg (fun h => absurd h.1 (by decide))]

/-- Per-bin total of the finished count table = the number of valid elements of the bin. -/
theorem cnt_bridge (c : Dev nD) (b : S10.Idx) :
    ∑ i ∈ Finset.univ.filter (fun i : S2x10x1024.Idx => reducesTo_S2x10x1024_S10_d0_2.drop i = b), Cfin m c i
      = Cert.Hist.cnt (binR (A0 m c) (A1 m c)) (validR (A2 m c)) (BitVec.ofNat 32 (b 0).val) := by
  refine (Cert.Hist.sum_drop02 reducesTo_S2x10x1024_S10_d0_2 (Cfin m c) b).trans ?_
  unfold Cert.Hist.cnt
  refine Eq.trans ?_ (Cert.Hist.sum_tiles
    (fun e => Cert.Hist.ind (validR (A2 m c) e) (binR (A0 m c) (A1 m c) e) (BitVec.ofNat 32 (b 0).val)))
  refine Finset.sum_congr rfl (fun q _ => ?_)
  refine Finset.sum_congr rfl (fun j _ => ?_)
  unfold Cfin
  rw [Ideal.ofBits_zero_f32, zero_add]
  refine Finset.sum_congr rfl (fun s hs => ?_)
  have hs8 : s < 8 := Finset.mem_range.1 hs
  have hq := q.isLt
  show tileC (F := Ideal) (idxAt m c (8 * q.val + s)) (ix2 (⟨(b 0).val, (b 0).isLt⟩ : Fin 10) j) = _
  rw [tileC_apply]
  refine Finset.sum_congr rfl (fun r _ => ?_)
  rw [idxAt_apply m c _ (by omega) r j]
  exact routed_ind _ _ _

/-- Per-bin total of the finished loss table = the sum of the losses of the valid elements of the bin. -/
theorem lsum_bridge (c : Dev nD) (b : S10.Idx) :
    ∑ i ∈ Finset.univ.filter (fun i : S2x10x1024.Idx => reducesTo_S2x10x1024_S10_d0_2.drop i = b), Lfin m c i
      = Cert.Hist.lsum (lossR (A0 m c) (A1 m c)) (binR (A0 m c) (A1 m c)) (validR (A2 m c)) (BitVec.ofNat 32 (b 0).val) := by
  refine (Cert.Hist.sum_drop02 reducesTo_S2x10x1024_S10_d0_2 (Lfin m c) b).trans ?_
  unfold Cert.Hist.lsum
  refine Eq.trans ?_ (Cert.Hist.sum_tiles
    (fun e => Cert.Hist.ind (validR (A2 m c) e) (binR (A0 m c) (A1 m c) e) (BitVec.ofNat 32 (b 0).val)
      * lossR (A0 m c) (A1 m c) e))
  refine Finset.sum_congr rfl (fun q _ => ?_)
  refine Finset.sum_congr rfl (fun j _ => ?_)
  unfold Lfin
  rw [Ideal.ofBits_zero_f32, zero_add]
  refine Finset.sum_congr rfl (fun s hs => ?_)
  have hs8 : s < 8 := Finset.mem_range.1 hs
  have hq := q.isLt
  show tileL (F := Ideal) (idxAt m c (8 * q.val + s)) (lossAt m c (8 * q.val + s))
    (ix2 (⟨(b 0).val, (b 0).isLt⟩ : Fin 10) j) = _
  rw [tileL_apply]
  refine Finset.sum_congr rfl (fun r _ => ?_)
  rw [idxAt_apply m c _ (by omega) r j, lossAt_apply m c _ (by omega) r j]
  exact congrArg (· * lossR (A0 m c) (A1 m c) (Cert.Hist.elt (8 * q.val + s) r j)) (routed_ind _ _ _)

end Cert.Bridge

end
-- ==== Proof.RefFinal.lean ====
/- The reference's result: every valid element's loss times the weight of its bin, summed, over the total.

   The per-bin weights are read from the ten-entry table by a gather at the elements' bins; a bin is below ten, so
   the gather's clamp changes nothing and the element of bin k reads entry k. -/
import proofs.«411748_j55654186222056_3_alg».proof.Proof.RefScatter
import Idealize.ShloMosaic.Lib.Pipeline.Value

noncomputable section

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.ReadP

variable (x0 x1 : (⟨S64x4x256x256, .f32⟩ : BufTy).Contents (Elt Ideal)) (x2 : (⟨S64x4x256x256, .i32⟩ : BufTy).Contents (Elt Ideal))

/-- The reference's total: the sum of the mask's entries as numbers, at least 1. -/
def totalR : EReal := max (∑ e : S64x4x256x256.Idx, (((x2 e).toInt : ℝ) : EReal)) 1

/-- The number of non-empty bins as the reference counts it (an integer fold over the ten compares, never evaluated). -/
def nzR : BitVec 32 := val_main_v36 (F := Ideal) x0 x1 x2 ix0

/-- The reference's normaliser: the number of non-empty bins, at least 1. -/
def normR : EReal := max ((((nzR x0 x1 x2).toInt : ℝ)) : EReal) 1

/-- Entry `b` of the weight table. -/
theorem v47_eq (b : S10.Idx) :
    val_main_v47 (F := Ideal) x0 x1 x2 b
      = Cert.Hist.wgt (Cert.Hist.cnt (binR x0 x1) (validR x2) (BitVec.ofNat 32 (b 0).val)) (totalR x2) (normR x0 x1 x2) := by
  rw [val_main_v47_apply, val_main_v44_apply, val_main_v39_apply, val_main_v43_apply, val_main_v41_apply,
    val_main_v42_apply, val_main_v46_apply, val_main_v45_apply, val_main_v37_apply, val_main_v17_apply,
    val_main_v16_apply, val_main_v38_apply, val_main_v40_apply, val_main_call1_v1_apply, val_main_call1_v0_apply,
    val_main_cst_12_apply, val_main_cst_13_apply, val_main_cst_14_apply, val_main_cst_15_apply, val_main_cst_3_apply,
    val_main_cst_2_apply, v32_eq]
  simp only [val_main_v15_apply, Ideal.ofBits_def, Ideal.ofBits_zero_f32, Cert.Hist.ofBits_one, zero_add,
    Ideal.hostDivf_def, Ideal.maximumf_def, Ideal.cmpf_def]
  rfl

/-- The start-indices index `[a, b, c, d, 0]` of the result index `(a, b, c, d)`. -/
abbrev startIdx (e : S64x4x256x256.Idx) : S64x4x256x256x1.Idx := ix5 (e 0) (e 1) (e 2) (e 3) ⟨0, Nat.one_pos⟩

/-- THE GATHER READ AT AN ELEMENT: a ten-entry table at the start index of the element, read signed and clamped
    into `[0, 9]`. -/
theorem gather_read {α : Type} (x : S10.Idx → α) (idx : IVec S64x4x256x256x1 32) (e : S64x4x256x256.Idx) :
    Host.gather gather_S10_S64x4x256x256x1_S64x4x256x256_n_0_n_n_0_4_1 x idx e
      = x (ix1 ⟨min (idx (startIdx e)).toInt.toNat 9, by omega⟩) := by
  unfold Host.gather
  congr 1
  funext a
  obtain rfl : a = 0 := Subsingleton.elim _ _
  refine Fin.ext ?_
  show gather_S10_S64x4x256x256x1_S64x4x256x256_n_0_n_n_0_4_1.start e idx 0
      + gather_S10_S64x4x256x256x1_S64x4x256x256_n_0_n_n_0_4_1.batchCoord e 0
      + gather_S10_S64x4x256x256x1_S64x4x256x256_n_0_n_n_0_4_1.offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10_S64x4x256x256x1_S64x4x256x256_n_0_n_n_0_4_1.startIndexMap from
    List.mem_singleton.mpr rfl)]
  have hsi : gather_S10_S64x4x256x256x1_S64x4x256x256_n_0_n_n_0_4_1.siIdx e
      ⟨List.idxOf (0 : Fin 1) gather_S10_S64x4x256x256x1_S64x4x256x256_n_0_n_n_0_4_1.startIndexMap,
        List.idxOf_lt_length_iff.2 (List.mem_singleton.mpr rfl)⟩ = startIdx e := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- The gather reads, for element `e`, the weight table's entry at the element's bin. -/
theorem v54_eq (e : S64x4x256x256.Idx) :
    val_main_v54 (F := Ideal) x0 x1 x2 e = val_main_v47 (F := Ideal) x0 x1 x2 (ix1 (binOf x0 x1 e)) := by
  have hnn : ∀ k : Fin 10, IntOp.cmpi .slt (BitVec.ofNat 32 k.val) 0#32 = 0#1 := by decide
  have hi : idx_main_v53 (startIdx e) = e := by
    funext a
    match a with
    | ⟨0, _⟩ => rfl
    | ⟨1, _⟩ => rfl
    | ⟨2, _⟩ => rfl
    | ⟨3, _⟩ => rfl
  -- the wrap "a negative bin counts from the end" leaves a bin in 0..9 alone
  have h53 : val_main_v53 (F := Ideal) x0 x1 (startIdx e) = binR x0 x1 e := by
    rw [val_main_v53_apply, hi, val_main_v52_apply, val_main_v49_apply, val_main_v48_apply, val_main_c_16_apply]
    have hlt : IntOp.cmpi .slt (val_main_v21 (F := Ideal) x0 x1 e) 0#32 = 0#1 := by
      rw [show val_main_v21 (F := Ideal) x0 x1 e = BitVec.ofNat 32 (binOf x0 x1 e).val from bin_eq x0 x1 e]
      exact hnn _
    rw [hlt, select_zero]
  have hk : min (val_main_v53 (F := Ideal) x0 x1 (startIdx e)).toInt.toNat 9 = (binOf x0 x1 e).val := by
    rw [h53]
    rfl
  unfold val_main_v54
  rw [gather_read]
  exact congrArg (fun j => val_main_v47 (F := Ideal) x0 x1 x2 (ix1 j)) (Fin.ext hk)

/-- The reference's result. -/
theorem ref_apply :
    val_main_v59 (F := Ideal) x0 x1 x2 ix0
      = Ideal.div (∑ e : S64x4x256x256.Idx, lossR x0 x1 e * Scalar.select (validR x2 e)
          (Cert.Hist.wgt (Cert.Hist.cnt (binR x0 x1) (validR x2) (binR x0 x1 e)) (totalR x2) (normR x0 x1 x2)) 0) (totalR x2) * 1 := by
  -- the weight an element reads: its bin's entry of the table
  have hw : ∀ e : S64x4x256x256.Idx, val_main_v54 (F := Ideal) x0 x1 x2 e
      = Cert.Hist.wgt (Cert.Hist.cnt (binR x0 x1) (validR x2) (binR x0 x1 e)) (totalR x2) (normR x0 x1 x2) := by
    intro e
    rw [v54_eq, v47_eq]
    show Cert.Hist.wgt (Cert.Hist.cnt (binR x0 x1) (validR x2) (BitVec.ofNat 32 (binOf x0 x1 e).val)) _ _ = _
    rw [← bin_eq]
  rw [val_main_v59_apply, val_main_v58_apply, val_main_v57_apply, val_main_v17_apply, val_main_v16_apply,
    val_main_cst_20_apply, val_main_cst_19_apply, val_main_cst_3_apply, val_main_cst_2_apply]
  simp only [val_main_v56_apply, val_main_v55_apply, val_main_call2_v1_apply, val_main_call2_v0_apply,
    val_main_cst_18_apply, val_main_v15_apply, Ideal.ofBits_def, Ideal.ofBits_zero_f32, Cert.Hist.ofBits_one, zero_add,
    Ideal.hostDivf_def, Ideal.maximumf_def, Ideal.mulf_def, hw]
  rfl

end Cert.ReferenceIdeal.RefVal

end
-- ==== Proof.LossReal.lean ====
/- The reference's loss of an element is a real number when both inputs are.

   √((a − b)² + μ²) − μ with a, b real: the two literals are reals, μ² non-negative, so the root's argument is a
   non-negative real and nothing infinite appears. -/
import proofs.«411748_j55654186222056_3_alg».proof.Proof.RefScatter

noncomputable section

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.ReadP

/-- The literal under the root, μ² = 4·10⁻⁴ as an f32, is the non-negative real 13743895 · 2⁻³⁵. -/
theorem mu2_real : ∃ r : ℝ, 0 ≤ r ∧ Ideal.ofBits .f32 0x39D1B717#32 = (r : EReal) := by
  have h : Ideal.ofBits .f32 0x39D1B717#32 = ((13743895 : ℝ) : EReal) * (((2 ^ 35 : ℝ)⁻¹ : ℝ) : EReal) := by
    simp [Ideal.ofBits, Ideal.ieee]
  exact ⟨13743895 * (2 ^ 35)⁻¹, by positivity, by rw [h, EReal.coe_mul]⟩

/-- The literal μ = 0.02 as an f32 is the real 10737418 · 2⁻²⁹. -/
theorem mu_real : ∃ r : ℝ, Ideal.ofBits .f32 0x3CA3D70A#32 = (r : EReal) := by
  have h : Ideal.ofBits .f32 0x3CA3D70A#32 = ((10737418 : ℝ) : EReal) * (((2 ^ 29 : ℝ)⁻¹ : ℝ) : EReal) := by
    simp [Ideal.ofBits, Ideal.ieee]
  exact ⟨10737418 * (2 ^ 29)⁻¹, by rw [h, EReal.coe_mul]⟩

variable (x0 x1 : (⟨S64x4x256x256, .f32⟩ : BufTy).Contents (Elt Ideal))

/-- The loss at an element, spelt out. -/
theorem lossR_apply (e : S64x4x256x256.Idx) :
    lossR x0 x1 e = Ideal.sqrt ((x0 e - x1 e) * (x0 e - x1 e) + Ideal.ofBits .f32 0x39D1B717#32) - Ideal.ofBits .f32 0x3CA3D70A#32 := by
  show val_main_v6 (F := Ideal) x0 x1 e = _
  rw [val_main_v6_apply, val_main_v4_apply, val_main_v3_apply, val_main_v1_apply, val_main_v0_apply, val_main_v2_apply,
    val_main_cst_apply, val_main_v5_apply, val_main_cst_0_apply]
  rfl

/-- With real inputs the loss is a real. -/
theorem lossR_real (e : S64x4x256x256.Idx) (h0 : ∃ a : ℝ, x0 e = (a : EReal)) (h1 : ∃ b : ℝ, x1 e = (b : EReal)) :
    ∃ r : ℝ, lossR x0 x1 e = (r : EReal) := by
  obtain ⟨a, ha⟩ := h0
  obtain ⟨b, hb⟩ := h1
  obtain ⟨u, hu0, hu⟩ := mu2_real
  obtain ⟨w, hw⟩ := mu_real
  have hnn : ¬((a - b) * (a - b) + u < 0) := not_lt.mpr (by have := mul_self_nonneg (a - b); linarith)
  rw [lossR_apply, ha, hb, hu, hw, ← EReal.coe_sub, ← EReal.coe_mul, ← EReal.coe_add, Ideal.sqrt_coe, if_neg hnn,
    ← EReal.coe_sub]
  exact ⟨_, rfl⟩

end Cert.ReferenceIdeal.RefVal

end
-- ==== Proof.Final.lean ====
/- The two results are one number.

   The reference's result and the kernel's host tail of its two finished tables are both read as the reweighted loss
   of the histogram (per element on the reference's side, per bin on the kernel's), over the same per-bin counts and
   loss sums; the two totals differ (the reference sums the mask's entries, the kernel the counts) but each is a real
   at least 1 and cancels, and the normaliser is the same integer count of non-empty bins of the same ten counts. -/
import proofs.«411748_j55654186222056_3_alg».proof.Proof.KTail
import proofs.«411748_j55654186222056_3_alg».proof.Proof.BridgeS
import proofs.«411748_j55654186222056_3_alg».proof.Proof.RefFinal
import proofs.«411748_j55654186222056_3_alg».proof.Proof.LossReal

noncomputable section

namespace Cert.Final

open Idealize.ShloMosaic Idealize.ShloMosaic.TcCoe Idealize.SL.Sem Idealize.ShloMosaic.ValueIdx
open Cert.KernelIdeal Cert.KernelIdeal.Gen Cert.KernelIdeal.KVal Cert.KernelIdeal.KTail
open Cert.ReferenceIdeal.RefVal Cert.Bridge Cert.Hist

section Reals

variable {ι : Type} [Fintype ι]

/-- The indicator is the coercion of the real indicator. -/
theorem ind_real (v : BitVec 1) (β k : BitVec 32) :
    ind v β k = (((if v = 1#1 ∧ β = k then (1 : ℝ) else 0) : ℝ) : EReal) := by
  unfold ind
  split_ifs <;> simp

/-- A per-bin count is a non-negative real. -/
theorem cnt_real (β : ι → BitVec 32) (v : ι → BitVec 1) (k : BitVec 32) :
    ∃ x : ℝ, 0 ≤ x ∧ cnt β v k = (x : EReal) := by
  refine ⟨∑ e, (if v e = 1#1 ∧ β e = k then (1 : ℝ) else 0),
    Finset.sum_nonneg (fun e _ => by split_ifs <;> norm_num), ?_⟩
  unfold cnt
  rw [coe_sum]
  exact Finset.sum_congr rfl (fun e _ => ind_real _ _ _)

/-- The maximum of a real and 1 is a real at least 1. -/
theorem max_one_real (x : ℝ) : ∃ t : ℝ, 1 ≤ t ∧ max (x : EReal) 1 = (t : EReal) :=
  ⟨max x 1, le_max_right _ _, by
    have h := EReal.coe_strictMono.monotone.map_max (a := x) (b := 1)
    rw [EReal.coe_one] at h
    exact h.symm⟩

end Reals

variable (m : (ℓ : Loc nD τ sig) → Buf (Elt Ideal) ℓ)

/-- Under real inputs, the reference's result on the kernel's argument arrays is the kernel's tail of its tables. -/
theorem value_eq (c : Dev nD)
    (h0 : ∀ e, ∃ r : ℝ, A0 m c e = (r : EReal)) (h1 : ∀ e, ∃ r : ℝ, A1 m c e = (r : EReal)) :
    Cert.ReferenceIdeal.ReadP.val_main_v59 (F := Ideal) (A0 m c) (A1 m c) (A2 m c) ix0
      = tail (F := Ideal) (Cfin m c) (Lfin m c) ix0 := by
  rw [ref_apply, tail_apply]
  have hC : binSum (Cfin m c)
      = fun b => cnt (binR (A0 m c) (A1 m c)) (validR (A2 m c)) (BitVec.ofNat 32 (b 0).val) :=
    funext fun b => cnt_bridge m c b
  have hL : binSum (Lfin m c)
      = fun b => lsum (lossR (A0 m c) (A1 m c)) (binR (A0 m c) (A1 m c)) (validR (A2 m c)) (BitVec.ofNat 32 (b 0).val) :=
    funext fun b => lsum_bridge m c b
  rw [hC, hL]
  -- the kernel's total: the maximum of the sum of ten counts and 1
  obtain ⟨tK, htK1, htK⟩ : ∃ t : ℝ, 1 ≤ t ∧
      total (fun b => cnt (binR (A0 m c) (A1 m c)) (validR (A2 m c)) (BitVec.ofNat 32 (b 0).val)) = (t : EReal) := by
    choose x hx0 hx using fun b : S10.Idx => cnt_real (binR (A0 m c) (A1 m c)) (validR (A2 m c)) (BitVec.ofNat 32 (b 0).val)
    unfold total
    simp only [hx]
    rw [← coe_sum]
    exact max_one_real _
  -- the reference's total: the maximum of the sum of the mask's entries and 1
  obtain ⟨tR, htR1, htR⟩ : ∃ t : ℝ, 1 ≤ t ∧ totalR (A2 m c) = (t : EReal) := by
    unfold totalR
    rw [← coe_sum]
    exact max_one_real _
  -- the normaliser: the same integer of the same ten counts on both sides
  have hv32 : Cert.ReferenceIdeal.ReadP.val_main_v32 (F := Ideal) (A0 m c) (A1 m c) (A2 m c)
      = fun b => cnt (binR (A0 m c) (A1 m c)) (validR (A2 m c)) (BitVec.ofNat 32 (b 0).val) :=
    funext fun b => v32_eq (A0 m c) (A1 m c) (A2 m c) b
  have hNK : normN (fun b => cnt (binR (A0 m c) (A1 m c)) (validR (A2 m c)) (BitVec.ofNat 32 (b 0).val))
      = normR (A0 m c) (A1 m c) (A2 m c) := by
    rw [← hv32]
    rfl
  obtain ⟨N, hN1, hN⟩ : ∃ t : ℝ, 1 ≤ t ∧ normR (A0 m c) (A1 m c) (A2 m c) = (t : EReal) := by
    unfold normR
    exact max_one_real _
  rw [hNK, htK, htR, hN, sum_ten]
  have hℓ : ∀ e, ∃ r : ℝ, lossR (A0 m c) (A1 m c) e = (r : EReal) := fun e => lossR_real _ _ e (h0 e) (h1 e)
  have hβ : ∀ e, ∃ k : Fin 10, binR (A0 m c) (A1 m c) e = BitVec.ofNat 32 k.val := fun e => ⟨_, bin_eq _ _ e⟩
  exact (reweight_eq (lossR (A0 m c) (A1 m c)) (binR (A0 m c) (A1 m c)) (validR (A2 m c)) hℓ hβ tK tR N htK1 htR1 hN1).symm

end Cert.Final

end
-- ==== Proof.lean ====
/- The certificate of the histogram-reweighted loss kernel against its jnp reference.

   The three frames are the generated frame certificates (the reference's: its run with the result dropped). The
   idealization rewrote nothing, so `preserves` is trivial. `algebraic`: the kernel's run ends with the scalar at the
   host tail of its two [2, 10, 1024] tables, which hold each core's column sums per bin; the reference's run ends at
   its composed term; under the precondition both inputs are real, and the two scalars are the same number: the
   reweighted loss of the per-bin histogram, in which each program's own total cancels. -/
import proofs.«411748_j55654186222056_3_alg».proof.Defs
import proofs.«411748_j55654186222056_3_alg».proof.Proof.Gen.Kernel
import proofs.«411748_j55654186222056_3_alg».proof.Proof.Gen.Kernel.Skeleton
import proofs.«411748_j55654186222056_3_alg».proof.Proof.Gen.Kernel.Launch
import proofs.«411748_j55654186222056_3_alg».proof.Proof.Gen.Kernel.Points
import proofs.«411748_j55654186222056_3_alg».proof.Proof.Gen.Kernel.Frame
import proofs.«411748_j55654186222056_3_alg».proof.Proof.Gen.KernelIdeal
import proofs.«411748_j55654186222056_3_alg».proof.Proof.Gen.KernelIdeal.Skeleton
import proofs.«411748_j55654186222056_3_alg».proof.Proof.Gen.KernelIdeal.Launch
import proofs.«411748_j55654186222056_3_alg».proof.Proof.Gen.KernelIdeal.Points
import proofs.«411748_j55654186222056_3_alg».proof.Proof.Gen.KernelIdeal.Frame
import proofs.«411748_j55654186222056_3_alg».proof.Proof.Gen.ReferenceIdeal
import proofs.«411748_j55654186222056_3_alg».proof.Proof.Gen.Pre_finite_inputs
import proofs.«411748_j55654186222056_3_alg».proof.Proof.RefRun
import proofs.«411748_j55654186222056_3_alg».proof.Proof.RefRead
import proofs.«411748_j55654186222056_3_alg».proof.Proof.Finite
import proofs.«411748_j55654186222056_3_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reweighted histogram loss of the same arrays. -/
theorem algebraic : Cert.algebraic_KernelIdeal_ReferenceIdeal := by
  intro m ρ m' ρ' hpre hagree
  refine ⟨fun c => Cert.KernelIdeal.KTail.tail (F := Ideal) (Cert.KernelIdeal.KVal.Cfin m c) (Cert.KernelIdeal.KVal.Lfin m c), ?_, ?_⟩
  · refine (θ_run Cert.KernelIdeal.defs _ _).mono (fun r h c => ⟨?_, (h c).2⟩)
      (Cert.KernelIdeal.KTail.run_tail (F := Ideal) m ρ)
    rw [(h c).1, Cert.KernelIdeal.KVal.final3, Cert.KernelIdeal.KVal.final4]
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v59_eq, (hagree c).1, (hagree c).2.1, (hagree c).2.2]
    obtain ⟨h0, h1⟩ := Cert.Finite.reals_of_pre _ _ _ (hpre c)
    funext i
    obtain rfl := ValueIdx.eq_ix0 i
    exact Cert.Final.value_eq m c h0 h1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
